-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x128 : Shape := ⟨3, ![64, 512, 128]⟩
abbrev S64x512x512 : Shape := ⟨3, ![64, 512, 512]⟩
abbrev S2048x1 : Shape := ⟨2, ![2048, 1]⟩
abbrev S_ : Shape := ⟨0, ![]⟩

class Facts : Prop where
  bcast_S_S64x512x128 : S_.BroadcastsInDim S64x512x128 (![] : Fin 0 → Fin S64x512x128.rank)
  reducesTo_S64x512x128_S_d0_1_2 : S64x512x128.ReducesTo [0, 1, 2] S_
  h_S_ : 0 < S_.numel
  bcast_S_S2048x1 : S_.BroadcastsInDim S2048x1 (![] : Fin 0 → Fin S2048x1.rank)
  reducesTo_S2048x1_S_d0_1 : S2048x1.ReducesTo [0, 1] S_

variable [Facts]

def fn {F : FTy → Type} [FloatOps F] (main_arg0 : FVec F S64x512x128 .f32) (main_arg1 : FVec F S64x512x128 .f32) (main_arg2 : IVec S64x512x512 32) (main_arg3 : FVec F S2048x1 .f32) : IVec S_ 1 :=
  let main_v0 : FVec F S64x512x128 .f32 := Host.absf main_arg0
  let main_cst : FVec F S_ .f32 := constant S_ .f32 0x7F800000#32
  let main_v1 : FVec F S64x512x128 .f32 := broadcastInDim S64x512x128 ![] bcast_S_S64x512x128 main_cst
  let main_v2 : IVec S64x512x128 1 := cmpf .olt main_v0 main_v1
  let main_c : IVec S_ 1 := constantI S_ 1 1#1
  let main_v3 : IVec S_ 1 := (fun x v => Host.reduce IntOp.andi x v reducesTo_S64x512x128_S_d0_1_2 h_S_) main_v2 main_c
  let main_v4 : FVec F S64x512x128 .f32 := Host.absf main_arg1
  let main_cst_0 : FVec F S_ .f32 := constant S_ .f32 0x7F800000#32
  let main_v5 : FVec F S64x512x128 .f32 := broadcastInDim S64x512x128 ![] bcast_S_S64x512x128 main_cst_0
  let main_v6 : IVec S64x512x128 1 := cmpf .olt main_v4 main_v5
  let main_c_1 : IVec S_ 1 := constantI S_ 1 1#1
  let main_v7 : IVec S_ 1 := (fun x v => Host.reduce IntOp.andi x v reducesTo_S64x512x128_S_d0_1_2 h_S_) main_v6 main_c_1
  let main_v8 : IVec S_ 1 := andi main_v3 main_v7
  let main_v9 : FVec F S2048x1 .f32 := Host.absf main_arg3
  let main_cst_2 : FVec F S_ .f32 := constant S_ .f32 0x7F800000#32
  let main_v10 : FVec F S2048x1 .f32 := broadcastInDim S2048x1 ![] bcast_S_S2048x1 main_cst_2
  let main_v11 : IVec S2048x1 1 := cmpf .olt main_v9 main_v10
  let main_c_3 : IVec S_ 1 := constantI S_ 1 1#1
  let main_v12 : IVec S_ 1 := (fun x v => Host.reduce IntOp.andi x v reducesTo_S2048x1_S_d0_1 h_S_) main_v11 main_c_3
  let main_v13 : IVec S_ 1 := andi main_v8 main_v12
  main_v13
-- ==== Kernel.lean ====
abbrev S64x512x128 : Shape := ⟨3, ![64, 512, 128]⟩
abbrev S64x512x512 : Shape := ⟨3, ![64, 512, 512]⟩
abbrev S2048x1 : Shape := ⟨2, ![2048, 1]⟩
abbrev S8x256 : Shape := ⟨2, ![8, 256]⟩
abbrev S8x128 : Shape := ⟨2, ![8, 128]⟩
abbrev S4x512x512 : Shape := ⟨3, ![4, 512, 512]⟩
abbrev S4x512x128 : Shape := ⟨3, ![4, 512, 128]⟩
abbrev S128x8 : Shape := ⟨2, ![128, 8]⟩
abbrev S1x512x128 : Shape := ⟨3, ![1, 512, 128]⟩
abbrev S512x128 : Shape := ⟨2, ![512, 128]⟩
abbrev S512x8 : Shape := ⟨2, ![512, 8]⟩
abbrev S8x512 : Shape := ⟨2, ![8, 512]⟩
abbrev S1x512x512 : Shape := ⟨3, ![1, 512, 512]⟩
abbrev S512x512 : Shape := ⟨2, ![512, 512]⟩
abbrev S512x1 : Shape := ⟨2, ![512, 1]⟩
abbrev S1x512 : Shape := ⟨2, ![1, 512]⟩

abbrev nBuf : Space → Nat
  | .hbm => 8
  | .vmem => 10
  | .smem => 0
  | _ => 0

abbrev bufTy : (tb : Table) → Fin (tcTables nBuf tb) → BufTy
  | .hbm, ⟨0, _⟩ => ⟨S64x512x128, .f32⟩
  | .hbm, ⟨1, _⟩ => ⟨S64x512x128, .f32⟩
  | .hbm, ⟨2, _⟩ => ⟨S64x512x512, .i32⟩
  | .hbm, ⟨3, _⟩ => ⟨S2048x1, .f32⟩
  | .hbm, ⟨4, _⟩ => ⟨S8x256, .f32⟩
  | .hbm, ⟨5, _⟩ => ⟨S8x128, .f32⟩
  | .hbm, ⟨6, _⟩ => ⟨S8x128, .f32⟩
  | .hbm, ⟨7, _⟩ => ⟨S64x512x512, .f32⟩
  | .local _ .vmem, ⟨0, _⟩ => ⟨S4x512x512, .i32⟩
  | .local _ .vmem, ⟨1, _⟩ => ⟨S4x512x512, .i32⟩
  | .local _ .vmem, ⟨2, _⟩ => ⟨S4x512x128, .f32⟩
  | .local _ .vmem, ⟨3, _⟩ => ⟨S4x512x128, .f32⟩
  | .local _ .vmem, ⟨4, _⟩ => ⟨S4x512x128, .f32⟩
  | .local _ .vmem, ⟨5, _⟩ => ⟨S4x512x128, .f32⟩
  | .local _ .vmem, ⟨6, _⟩ => ⟨S8x128, .f32⟩
  | .local _ .vmem, ⟨7, _⟩ => ⟨S8x128, .f32⟩
  | .local _ .vmem, ⟨8, _⟩ => ⟨S4x512x512, .f32⟩
  | .local _ .vmem, ⟨9, _⟩ => ⟨S4x512x512, .f32⟩
  | _, _ => ⟨S64x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c4_i32 : BitVec 32 := 4#32
  let v7 : BitVec 32 := Scalar.addi c0_i32 c4_i32
  let c1_i32 : BitVec 32 := 1#32
  ⟨c0_i32, v7, c1_i32⟩
def k0_off1 (k0_t1 : Fin k0_t1_loop.trips) : Fin 3 → Nat :=
  let c0_i32 : BitVec 32 := 0#32
  let c1_i32 : BitVec 32 := 1#32
  let arg7 : BitVec 32 := Scf.iv c0_i32 c1_i32 k0_t1
  let v8 : Index := Scalar.indexCast arg7
  let c0_4 : Index := 0#32
  let c0_5 : Index := 0#32
  ![v8.toNat, 0, 0]
def k0_off2 (k0_t1 : Fin k0_t1_loop.trips) : Fin 3 → Nat :=
  let c0_i32 : BitVec 32 := 0#32
  let c1_i32 : BitVec 32 := 1#32
  let arg7 : BitVec 32 := Scf.iv c0_i32 c1_i32 k0_t1
  let v18 : Index := Scalar.indexCast arg7
  let c0_9 : Index := 0#32
  let c0_10 : Index := 0#32
  ![v18.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S2048x1_S8x256 : S2048x1.ShapeCasts S8x256
  slices_S8x256_S8x128_0_0 : S8x256.Slices ![0, 0] S8x128
  slices_S8x256_S8x128_0_128 : S8x256.Slices ![0, 128] S8x128
  inb_S8x128_S8x128_0_0 : ∀ a, (![0, 0] : Fin 2 → Nat) a + S8x128.size a ≤ S8x128.size a
  h_S8x128 : 0 < S8x128.numel
  shapeCasts_S8x128_S8x128 : S8x128.ShapeCasts S8x128
  bitsLt_bf16_f32 : FTy.bits .bf16 < FTy.bits .f32
  transposes_S8x128_p1_0_S128x8 : S8x128.Transposes [1, 0] S128x8
  h_S1x512x128 : 0 < S1x512x128.numel
  shapeCasts_S1x512x128_S512x128 : S1x512x128.ShapeCasts S512x128
  h_S1x512x512 : 0 < S1x512x512.numel
  shapeCasts_S1x512x512_S512x512 : S1x512x512.ShapeCasts S512x512
  slices_S512x8_o0_0_S512x1 : S512x8.Slices ![0, 0] S512x1
  slices_S8x512_o0_0_S1x512 : S8x512.Slices ![0, 0] S1x512
  broadcasts_S512x1_S512x512 : S512x1.Broadcasts S512x512
  broadcasts_S1x512_S512x512 : S1x512.Broadcasts S512x512
  slices_S512x8_o0_1_S512x1 : S512x8.Slices ![0, 1] S512x1
  slices_S8x512_o1_0_S1x512 : S8x512.Slices ![1, 0] S1x512
  slices_S512x8_o0_2_S512x1 : S512x8.Slices ![0, 2] S512x1
  slices_S8x512_o2_0_S1x512 : S8x512.Slices ![2, 0] S1x512
  slices_S512x8_o0_3_S512x1 : S512x8.Slices ![0, 3] S512x1
  slices_S8x512_o3_0_S1x512 : S8x512.Slices ![3, 0] S1x512
  slices_S512x8_o0_4_S512x1 : S512x8.Slices ![0, 4] S512x1
  slices_S8x512_o4_0_S1x512 : S8x512.Slices ![4, 0] S1x512
  slices_S512x8_o0_5_S512x1 : S512x8.Slices ![0, 5] S512x1
  slices_S8x512_o5_0_S1x512 : S8x512.Slices ![5, 0] S1x512
  slices_S512x8_o0_6_S512x1 : S512x8.Slices ![0, 6] S512x1
  slices_S8x512_o6_0_S1x512 : S8x512.Slices ![6, 0] S1x512
  slices_S512x8_o0_7_S512x1 : S512x8.Slices ![0, 7] S512x1
  slices_S8x512_o7_0_S1x512 : S8x512.Slices ![7, 0] S1x512
  shapeCasts_S512x512_S1x512x512 : S512x512.ShapeCasts S1x512x512
  dot_S512x128_S128x8_S512x8_1_0_0_1_n_n_wf : DotDims.WF S512x128 S128x8 S512x8 [1] [0] [0] [1] [] []
  dot_S8x128_S512x128_S8x512_1_1_0_0_n_n_wf : DotDims.WF S8x128 S512x128 S8x512 [1] [1] [0] [0] [] []
  hrank0 : 0 < grid0.rank
  k0_t1_ok : k0_t1_loop.OK
  k0_off1_inb : ∀ k0_t1 : Fin k0_t1_loop.trips, ∀ a, (k0_off1 k0_t1) a + S1x512x128.size a ≤ S4x512x128.size a
  k0_off2_inb : ∀ k0_t1 : Fin k0_t1_loop.trips, ∀ a, (k0_off2 k0_t1) a + S1x512x512.size a ≤ S4x512x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x512.size a ≤ S64x512x512.size a
  hwx0_0 : ∀ i : grid0.Coords, EltTy.bits .i32 = 32 ∨ (Rect.block (s := S64x512x512) S4x512x512.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x128.size a ≤ S64x512x128.size a
  hwx0_1 : ∀ i : grid0.Coords, EltTy.bits .f32 = 32 ∨ (Rect.block (s := S64x512x128) S4x512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x512x128.size a ≤ S64x512x128.size a
  hwx0_2 : ∀ i : grid0.Coords, EltTy.bits .f32 = 32 ∨ (Rect.block (s := S64x512x128) S4x512x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S8x128.size a
  hwx0_3 : ∀ i : grid0.Coords, EltTy.bits .f32 = 32 ∨ (Rect.block (s := S8x128) S8x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S8x128.size a
  hwx0_4 : ∀ i : grid0.Coords, EltTy.bits .f32 = 32 ∨ (Rect.block (s := S8x128) S8x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x512x512.size a ≤ S64x512x512.size a
  hwx0_5 : ∀ i : grid0.Coords, EltTy.bits .f32 = 32 ∨ (Rect.block (s := S64x512x512) S4x512x512.size (cc0_transform_5 i) (hinb0_5 i)).WholeWords (EltTy.packing .f32)

variable [Facts₀]

def dot_S512x128_S128x8_S512x8_1_0_0_1_n_n : DotDims S512x128 S128x8 S512x8 where
  lhsContracting := [1]
  rhsContracting := [0]
  lhsNonContracting := [0]
  rhsNonContracting := [1]
  lhsBatch := []
  rhsBatch := []
  wf := dot_S512x128_S128x8_S512x8_1_0_0_1_n_n_wf
def dot_S8x128_S512x128_S8x512_1_1_0_0_n_n : DotDims S8x128 S512x128 S8x512 where
  lhsContracting := [1]
  rhsContracting := [1]
  lhsNonContracting := [0]
  rhsNonContracting := [0]
  lhsBatch := []
  rhsBatch := []
  wf := dot_S8x128_S512x128_S8x512_1_1_0_0_n_n_wf

abbrev win0_0 : Pipeline.Window sig grid0 :=
  Pipeline.Window.ofSpec (Memref.whole main_arg2) S4x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4x512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S4x512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S8x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S4x512x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x512x128 : Shape := ⟨3, ![64, 512, 128]⟩
abbrev S64x512x512 : Shape := ⟨3, ![64, 512, 512]⟩
abbrev S2048x1 : Shape := ⟨2, ![2048, 1]⟩
abbrev S8x256 : Shape := ⟨2, ![8, 256]⟩
abbrev S8x128 : Shape := ⟨2, ![8, 128]⟩
abbrev S64x512x8 : Shape := ⟨3, ![64, 512, 8]⟩
abbrev S_ : Shape := ⟨0, ![]⟩
abbrev S64 : Shape := ⟨1, ![64]⟩
abbrev S64x1x1 : Shape := ⟨3, ![64, 1, 1]⟩
abbrev S512 : Shape := ⟨1, ![512]⟩
abbrev S1x512x1 : Shape := ⟨3, ![1, 512, 1]⟩
abbrev S1x1x512 : Shape := ⟨3, ![1, 1, 512]⟩
abbrev S64x512x512x1 : Shape := ⟨4, ![64, 512, 512, 1]⟩
abbrev S64x512x512x3 : Shape := ⟨4, ![64, 512, 512, 3]⟩

abbrev nBuf : Space → Nat
  | .hbm => 93
  | .vmem => 0
  | .smem => 0
  | _ => 0

abbrev bufTy : (tb : Table) → Fin (tcTables nBuf tb) → BufTy
  | .hbm, ⟨0, _⟩ => ⟨S64x512x128, .f32⟩
  | .hbm, ⟨1, _⟩ => ⟨S64x512x128, .f32⟩
  | .hbm, ⟨2, _⟩ => ⟨S64x512x512, .i32⟩
  | .hbm, ⟨3, _⟩ => ⟨S2048x1, .f32⟩
  | .hbm, ⟨4, _⟩ => ⟨S8x256, .f32⟩
  | .hbm, ⟨5, _⟩ => ⟨S8x128, .f32⟩
  | .hbm, ⟨6, _⟩ => ⟨S8x128, .f32⟩
  | .hbm, ⟨7, _⟩ => ⟨S64x512x8, .f32⟩
  | .hbm, ⟨8, _⟩ => ⟨S64x512x8, .f32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S64x512x512, .i32⟩
  | .hbm, ⟨13, _⟩ => ⟨S64x512x512, .i32⟩
  | .hbm, ⟨14, _⟩ => ⟨S_, .i32⟩
  | .hbm, ⟨15, _⟩ => ⟨S64x512x512, .i32⟩
  | .hbm, ⟨16, _⟩ => ⟨S64x512x512, .i32⟩
  | .hbm, ⟨17, _⟩ => ⟨S64, .i32⟩
  | .hbm, ⟨18, _⟩ => ⟨S64x1x1, .i32⟩
  | .hbm, ⟨19, _⟩ => ⟨S512, .i32⟩
  | .hbm, ⟨20, _⟩ => ⟨S1x512x1, .i32⟩
  | .hbm, ⟨21, _⟩ => ⟨S512, .i32⟩
  | .hbm, ⟨22, _⟩ => ⟨S1x1x512, .i32⟩
  | .hbm, ⟨23, _⟩ => ⟨S_, .i32⟩
  | .hbm, ⟨24, _⟩ => ⟨S64x1x1, .i32⟩
  | .hbm, ⟨25, _⟩ => ⟨S64x1x1, .i1⟩
  | .hbm, ⟨26, _⟩ => ⟨S_, .i32⟩
  | .hbm, ⟨27, _⟩ => ⟨S64x1x1, .i32⟩
  | .hbm, ⟨28, _⟩ => ⟨S64x1x1, .i32⟩
  | .hbm, ⟨29, _⟩ => ⟨S64x1x1, .i32⟩
  | .hbm, ⟨30, _⟩ => ⟨S_, .i32⟩
  | .hbm, ⟨31, _⟩ => ⟨S1x512x1, .i32⟩
  | .hbm, ⟨32, _⟩ => ⟨S1x512x1, .i1⟩
  | .hbm, ⟨33, _⟩ => ⟨S_, .i32⟩
  | .hbm, ⟨34, _⟩ => ⟨S1x512x1, .i32⟩
  | .hbm, ⟨35, _⟩ => ⟨S1x512x1, .i32⟩
  | .hbm, ⟨36, _⟩ => ⟨S1x512x1, .i32⟩
  | .hbm, ⟨37, _⟩ => ⟨S_, .i32⟩
  | .hbm, ⟨38, _⟩ => ⟨S64x512x512, .i32⟩
  | .hbm, ⟨39, _⟩ => ⟨S64x512x512, .i1⟩
  | .hbm, ⟨40, _⟩ => ⟨S_, .i32⟩
  | .hbm, ⟨41, _⟩ => ⟨S64x512x512, .i32⟩
  | .hbm, ⟨42, _⟩ => ⟨S64x512x512, .i32⟩
  | .hbm, ⟨43, _⟩ => ⟨S64x512x512, .i32⟩
  | .hbm, ⟨44, _⟩ => ⟨S64x512x512, .i32⟩
  | .hbm, ⟨45, _⟩ => ⟨S64x512x512, .i32⟩
  | .hbm, ⟨46, _⟩ => ⟨S64x512x512x1, .i32⟩
  | .hbm, ⟨47, _⟩ => ⟨S64x512x512x1, .i32⟩
  | .hbm, ⟨48, _⟩ => ⟨S64x512x512x1, .i32⟩
  | .hbm, ⟨49, _⟩ => ⟨S64x512x512x3, .i32⟩
  | .hbm, ⟨50, _⟩ => ⟨S64x512x512, .f32⟩
  | .hbm, ⟨51, _⟩ => ⟨S_, .i32⟩
  | .hbm, ⟨52, _⟩ => ⟨S64x1x1, .i32⟩
  | .hbm, ⟨53, _⟩ => ⟨S64x1x1, .i1⟩
  | .hbm, ⟨54, _⟩ => ⟨S_, .i32⟩
  | .hbm, ⟨55, _⟩ => ⟨S64x1x1, .i32⟩
  | .hbm, ⟨56, _⟩ => ⟨S64x1x1, .i32⟩
  | .hbm, ⟨57, _⟩ => ⟨S64x1x1, .i32⟩
  | .hbm, ⟨58, _⟩ => ⟨S_, .i32⟩
  | .hbm, ⟨59, _⟩ => ⟨S1x1x512, .i32⟩
  | .hbm, ⟨60, _⟩ => ⟨S1x1x512, .i1⟩
  | .hbm, ⟨61, _⟩ => ⟨S_, .i32⟩
  | .hbm, ⟨62, _⟩ => ⟨S1x1x512, .i32⟩
  | .hbm, ⟨63, _⟩ => ⟨S1x1x512, .i32⟩
  | .hbm, ⟨64, _⟩ => ⟨S1x1x512, .i32⟩
  | .hbm, ⟨65, _⟩ => ⟨S_, .i32⟩
  | .hbm, ⟨66, _⟩ => ⟨S64x512x512, .i32⟩
  | .hbm, ⟨67, _⟩ => ⟨S64x512x512, .i1⟩
  | .hbm, ⟨68, _⟩ => ⟨S_, .i32⟩
  | .hbm, ⟨69, _⟩ => ⟨S64x512x512, .i32⟩
  | .hbm, ⟨70, _⟩ => ⟨S64x512x512, .i32⟩
  | .hbm, ⟨71, _⟩ => ⟨S64x512x512, .i32⟩
  | .hbm, ⟨72, _⟩ => ⟨S64x512x512, .i32⟩
  | .hbm, ⟨73, _⟩ => ⟨S64x512x512, .i32⟩
  | .hbm, ⟨74, _⟩ => ⟨S64x512x512x1, .i32⟩
  | .hbm, ⟨75, _⟩ => ⟨S64x512x512x1, .i32⟩
  | .hbm, ⟨76, _⟩ => ⟨S64x512x512x1, .i32⟩
  | .hbm, ⟨77, _⟩ => ⟨S64x512x512x3, .i32⟩
  | .hbm, ⟨78, _⟩ => ⟨S64x512x512, .f32⟩
  | .hbm, ⟨79, _⟩ => ⟨S64x512x512, .f32⟩
  | .hbm, ⟨80, _⟩ => ⟨S_, .i32⟩
  | .hbm, ⟨81, _⟩ => ⟨S64x512x512, .i32⟩
  | .hbm, ⟨82, _⟩ => ⟨S64x512x512, .i1⟩
  | .hbm, ⟨83, _⟩ => ⟨S_, .f32⟩
  | .hbm, ⟨84, _⟩ => ⟨S64x512x512, .f32⟩
  | .hbm, ⟨85, _⟩ => ⟨S64x512x512, .f32⟩
  | .hbm, ⟨86, _⟩ => ⟨S_, .f32⟩
  | .hbm, ⟨87, _⟩ => ⟨S64x512x512, .f32⟩
  | .hbm, ⟨88, _⟩ => ⟨S64x512x512, .i1⟩
  | .hbm, ⟨89, _⟩ => ⟨S_, .f32⟩
  | .hbm, ⟨90, _⟩ => ⟨S64x512x512, .f32⟩
  | .hbm, ⟨91, _⟩ => ⟨S64x512x512, .f32⟩
  | .hbm, ⟨92, _⟩ => ⟨S64x512x512, .f32⟩
  | _, _ => ⟨S64x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_1 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_c_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_9 : Ref sig .tc := ⟨.hbm, 58, rfl⟩
abbrev main_v39 : Ref sig .tc := ⟨.hbm, 59, rfl⟩
abbrev main_v40 : Ref sig .tc := ⟨.hbm, 60, rfl⟩
abbrev main_c_10 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_11 : Ref sig .tc := ⟨.hbm, 65, rfl⟩
abbrev main_v44 : Ref sig .tc := ⟨.hbm, 66, rfl⟩
abbrev main_v45 : Ref sig .tc := ⟨.hbm, 67, rfl⟩
abbrev main_c_12 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_13 : Ref sig .tc := ⟨.hbm, 80, rfl⟩
abbrev main_v57 : Ref sig .tc := ⟨.hbm, 81, rfl⟩
abbrev main_v58 : Ref sig .tc := ⟨.hbm, 82, rfl⟩
abbrev main_cst : Ref sig .tc := ⟨.hbm, 83, rfl⟩
abbrev main_call1_v0 : Ref sig .tc := ⟨.hbm, 84, rfl⟩
abbrev main_v59 : Ref sig .tc := ⟨.hbm, 85, rfl⟩
abbrev main_cst_14 : Ref sig .tc := ⟨.hbm, 86, rfl⟩
abbrev main_v60 : Ref sig .tc := ⟨.hbm, 87, rfl⟩
abbrev main_v61 : Ref sig .tc := ⟨.hbm, 88, rfl⟩
abbrev main_cst_15 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩

abbrev nD : Nat := 1
abbrev τ : Topo := Topo.v7x

variable {F : FTy → Type} [FloatOps F]

class Facts₀ : Prop where
  shapeCasts_S2048x1_S8x256 : S2048x1.ShapeCasts S8x256
  slices_S8x256_S8x128_0_0 : S8x256.Slices ![0, 0] S8x128
  slices_S8x256_S8x128_0_128 : S8x256.Slices ![0, 128] S8x128
  bcast_S_S64x512x512 : S_.BroadcastsInDim S64x512x512 (![] : Fin 0 → Fin S64x512x512.rank)
  bcast_S64_S64x1x1_0 : S64.BroadcastsInDim S64x1x1 (![0] : Fin 1 → Fin S64x1x1.rank)
  bcast_S512_S1x512x1_1 : S512.BroadcastsInDim S1x512x1 (![1] : Fin 1 → Fin S1x512x1.rank)
  bcast_S512_S1x1x512_2 : S512.BroadcastsInDim S1x1x512 (![2] : Fin 1 → Fin S1x1x512.rank)
  bcast_S_S64x1x1 : S_.BroadcastsInDim S64x1x1 (![] : Fin 0 → Fin S64x1x1.rank)
  bcast_S_S1x512x1 : S_.BroadcastsInDim S1x512x1 (![] : Fin 0 → Fin S1x512x1.rank)
  bcast_S64x1x1_S64x512x512_0_1_2 : S64x1x1.BroadcastsInDim S64x512x512 (![0, 1, 2] : Fin 3 → Fin S64x512x512.rank)
  bcast_S1x512x1_S64x512x512_0_1_2 : S1x512x1.BroadcastsInDim S64x512x512 (![0, 1, 2] : Fin 3 → Fin S64x512x512.rank)
  bcast_S64x512x512_S64x512x512x1_0_1_2 : S64x512x512.BroadcastsInDim S64x512x512x1 (![0, 1, 2] : Fin 3 → Fin S64x512x512x1.rank)
  concatenates_S64x512x512x1_S64x512x512x1_S64x512x512x1_S64x512x512x3_d3 : Shape.Concatenates [S64x512x512x1, S64x512x512x1, S64x512x512x1] S64x512x512x3 3
  bcast_S_S1x1x512 : S_.BroadcastsInDim S1x1x512 (![] : Fin 0 → Fin S1x1x512.rank)
  bcast_S1x1x512_S64x512x512_0_1_2 : S1x1x512.BroadcastsInDim S64x512x512 (![0, 1, 2] : Fin 3 → Fin S64x512x512.rank)
  dot_S64x512x128_S8x128_S64x512x8_2_1_01_0_n_n_wf : DotDims.WF S64x512x128 S8x128 S64x512x8 [2] [1] [0, 1] [0] [] []
  gather_S64x512x8_S64x512x512x3_S64x512x512_n_012_n_n_012_3_111_wf : GatherDims.WF S64x512x8 S64x512x512x3 S64x512x512 [] [0, 1, 2] [] [0, 1, 2] [] 3 ![1, 1, 1]

variable [Facts₀]

def dot_S64x512x128_S8x128_S64x512x8_2_1_01_0_n_n : DotDims S64x512x128 S8x128 S64x512x8 where
  lhsContracting := [2]
  rhsContracting := [1]
  lhsNonContracting := [0, 1]
  rhsNonContracting := [0]
  lhsBatch := []
  rhsBatch := []
  wf := dot_S64x512x128_S8x128_S64x512x8_2_1_01_0_n_n_wf
def gather_S64x512x8_S64x512x512x3_S64x512x512_n_012_n_n_012_3_111 : GatherDims S64x512x8 S64x512x512x3 S64x512x512 where
  offsetDims := []
  collapsedSliceDims := [0, 1, 2]
  operandBatchingDims := []
  startIndicesBatchingDims := []
  startIndexMap := [0, 1, 2]
  indexVectorDim := 3
  sliceSizes := ![1, 1, 1]
  wf := gather_S64x512x8_S64x512x512x3_S64x512x512_n_012_n_n_012_3_111_wf

class Facts : Prop extends Facts₀ where

variable [Facts]
-- ==== Proof.LibNary3.lean ====
/-
  A `stablehlo.concatenate` of THREE operands, read back from a straight line of host operations.

  The value a three-operand operation writes is its function of the family of its operands' contents. Stated over a literal
  family of three references, the family is spelt entry by entry — each operand's contents at its own reference — so that
  what those three buffers hold can be rewritten further by the result lemmas of the operations that wrote them; and a family
  spelt entry by entry read at `0`, `1` or `2` is that entry.
-/
import Idealize.ShloMosaic.Lib.StableHlo.Run

namespace Idealize.ShloMosaic.StableHlo

variable {τ : Topo} {sig : RefSig} {Val : EltTy → Type} {x a b y : Ref sig .tc}

/-- `nary` over a LITERAL family of three references: the result with each operand's contents at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result reference un-indexed, for one pass of `simp`. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- A family of three spelt entry by entry, read at `0`, … -/
theorem cons3_zero {α : Fin 3 → Sort _} (a : α 0) (b : α 1) (c : α 2) (e : (i : Fin 0) → α i.succ.succ.succ) :
    (Fin.cons a (Fin.cons (α := fun i : Fin 2 => α i.succ) b (Fin.cons (α := fun i : Fin 1 => α i.succ.succ) c e)) : (k : Fin 3) → α k) 0 = a := rfl
/-- … at `1`, … -/
theorem cons3_one {α : Fin 3 → Sort _} (a : α 0) (b : α 1) (c : α 2) (e : (i : Fin 0) → α i.succ.succ.succ) :
    (Fin.cons a (Fin.cons (α := fun i : Fin 2 => α i.succ) b (Fin.cons (α := fun i : Fin 1 => α i.succ.succ) c e)) : (k : Fin 3) → α k) 1 = b := rfl
/-- … and at `2`. -/
theorem cons3_two {α : Fin 3 → Sort _} (a : α 0) (b : α 1) (c : α 2) (e : (i : Fin 0) → α i.succ.succ.succ) :
    (Fin.cons a (Fin.cons (α := fun i : Fin 2 => α i.succ) b (Fin.cons (α := fun i : Fin 1 => α i.succ.succ) c e)) : (k : Fin 3) → α k) 2 = c := rfl

/-- What one buffer holds after a straight line of host operations, as ONE `simp` pass over the operations' result lemmas,
    a three-operand operation's operands read entry by entry. -/
macro "after_results_simp3" : tactic =>
  `(tactic| (simp (disch := decide) only [after_cons, after_nil,
      nullary_result', unary_result', binary_result', ternary_result', quaternary_result', reshape_result', nary3_result',
      cons3_zero, cons3_one, cons3_two,
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo
-- ==== Proof.RefRun.lean ====
/-
  THE REFERENCE'S RUN, STRETCH BY STRETCH.

  The reference is a straight line of 89 host operations, each writing a buffer of its own. Its run ends with every buffer at
  the fold of the operations' results over the launch contents; what the fold leaves in the result buffer is the last stage of
  the reference read one operation at a time (`Read.val_main_v64` of the four argument arrays). The line holds two
  concatenates of three computed pieces, and an equation about a concatenate's pieces is lost to a single pass of rewriting;
  so the line is cut before each concatenate into three stretches. Over each stretch the contents it starts from are any
  contents `W` at all, known only at the few buffers the stretch reads: the first stretch builds the two projections' tables,
  the clipped edge words and the index components of the first gather; the second reads the first gather and builds the
  index components of the second; the third reads the second gather, adds, masks and applies the rectifier.
-/
import proofs.«407953_j369367188027_3_alg».proof.Proof.RefRunOps
import proofs.«407953_j369367188027_3_alg».proof.Proof.RefRead
import proofs.«407953_j369367188027_3_alg».proof.Proof.LibNary3
import Idealize.ShloMosaic.Lib.Pipeline.Frame

set_option maxRecDepth 8192

noncomputable section

namespace Cert.ReferenceIdeal.RefRun

open Cert.ReferenceIdeal Cert.ReferenceIdeal.Gen Cert.ReferenceIdeal.ValueP Cert.ReferenceIdeal.Read
open Idealize.ShloMosaic Idealize.ShloMosaic.TcCoe Idealize.SL.Sem Idealize.ShloMosaic.StableHlo

variable {F : FTy → Type} [FloatOps F]

/-- The three stretches: up to the first concatenate; from it up to the second; from the second to the end. -/
abbrev opsA : List (HloOp τ sig (Elt F)) := (ops (F := F)).take 45
abbrev opsB : List (HloOp τ sig (Elt F)) := ((ops (F := F)).drop 45).take 28
abbrev opsC : List (HloOp τ sig (Elt F)) := ((ops (F := F)).drop 45).drop 28

theorem ops_split : (ops (F := F)) = opsA ++ (opsB ++ opsC) := by
  unfold opsA opsB opsC
  rw [List.take_append_drop, List.take_append_drop]

/-- One pass over a stretch: the stretch's operations listed, each result read at its buffer. -/
macro "stretch_results" : tactic =>
  `(tactic| (simp (disch := decide) only [opsA, opsB, opsC, ops, List.take_succ_cons, List.take_zero, List.drop_succ_cons, List.drop_zero,
      after_cons, after_nil,
      nullary_result', unary_result', binary_result', ternary_result', quaternary_result', reshape_result', nary3_result',
      unaryIndexed_result', binaryIndexed_result',
      nullary_result_ne', unary_result_ne', binary_result_ne', ternary_result_ne', quaternary_result_ne', reshape_result_ne',
      nary_result_ne', unaryIndexed_result_ne', binaryIndexed_result_ne']))

/-! ## The first stretch: the projections' tables, the clipped words, the first gather's index components -/

set_option maxHeartbeats 4000000 in
theorem A_v29 (V : Valuation τ sig (Elt F)) : after opsA V (Proc.devRef .tc main_v29) = val_main_v29 (F := F) := by
  stretch_results; rfl
set_option maxHeartbeats 4000000 in
theorem A_v30 (V : Valuation τ sig (Elt F)) : after opsA V (Proc.devRef .tc main_v30) = val_main_v30 (F := F) := by
  stretch_results; rfl
set_option maxHeartbeats 4000000 in
theorem A_v5 (V : Valuation τ sig (Elt F)) :
    after opsA V (Proc.devRef .tc main_v5) = val_main_v5 (F := F) (V (Proc.devRef .tc main_arg2)) := by
  stretch_results; (try simp only [TRef.ofBuf, TRef.toBuf, cast_eq]); rfl
set_option maxHeartbeats 4000000 in
theorem A_v31 (V : Valuation τ sig (Elt F)) :
    after opsA V (Proc.devRef .tc main_v31) = val_main_v31 (F := F) (V (Proc.devRef .tc main_arg2)) := by
  stretch_results; (try simp only [TRef.ofBuf, TRef.toBuf, cast_eq]); rfl
set_option maxHeartbeats 4000000 in
theorem A_v3 (V : Valuation τ sig (Elt F)) :
    after opsA V (Proc.devRef .tc main_v3) = val_main_v3 (F := F) (V (Proc.devRef .tc main_arg0)) (V (Proc.devRef .tc main_arg3)) := by
  stretch_results; rfl
set_option maxHeartbeats 4000000 in
theorem A_v4 (V : Valuation τ sig (Elt F)) :
    after opsA V (Proc.devRef .tc main_v4) = val_main_v4 (F := F) (V (Proc.devRef .tc main_arg1)) (V (Proc.devRef .tc main_arg3)) := by
  stretch_results; rfl
set_option maxHeartbeats 4000000 in
theorem A_v7 (V : Valuation τ sig (Elt F)) : after opsA V (Proc.devRef .tc main_v7) = val_main_v7 (F := F) := by
  stretch_results; rfl
set_option maxHeartbeats 4000000 in
theorem A_v11 (V : Valuation τ sig (Elt F)) : after opsA V (Proc.devRef .tc main_v11) = val_main_v11 (F := F) := by
  stretch_results; rfl
set_option maxHeartbeats 4000000 in
theorem A_arg2 (V : Valuation τ sig (Elt F)) : after opsA V (Proc.devRef .tc main_arg2) = V (Proc.devRef .tc main_arg2) := by
  stretch_results

/-! ## The second stretch: the first gather, the second gather's index components -/

set_option maxHeartbeats 4000000 in
theorem B_v33 (W : Valuation τ sig (Elt F)) (x0 : (⟨S64x512x128, .f32⟩ : BufTy).Contents (Elt F)) (x2 : (⟨S64x512x512, .i32⟩ : BufTy).Contents (Elt F)) (x3 : (⟨S2048x1, .f32⟩ : BufTy).Contents (Elt F))
    (h3 : W (Proc.devRef .tc main_v3) = val_main_v3 (F := F) x0 x3)
    (h29 : W (Proc.devRef .tc main_v29) = val_main_v29 (F := F)) (h30 : W (Proc.devRef .tc main_v30) = val_main_v30 (F := F))
    (h31 : W (Proc.devRef .tc main_v31) = val_main_v31 (F := F) x2) :
    after opsB W (Proc.devRef .tc main_v33) = val_main_v33 (F := F) x0 x2 x3 := by
  stretch_results
  rw [h3, h29, h30, h31]
  rfl
set_option maxHeartbeats 4000000 in
theorem B_v51 (W : Valuation τ sig (Elt F)) (h7 : W (Proc.devRef .tc main_v7) = val_main_v7 (F := F)) :
    after opsB W (Proc.devRef .tc main_v51) = val_main_v51 (F := F) := by
  stretch_results; rw [h7]; rfl
set_option maxHeartbeats 4000000 in
theorem B_v52 (W : Valuation τ sig (Elt F)) (h11 : W (Proc.devRef .tc main_v11) = val_main_v11 (F := F)) :
    after opsB W (Proc.devRef .tc main_v52) = val_main_v52 (F := F) := by
  stretch_results; rw [h11]; rfl
set_option maxHeartbeats 4000000 in
theorem B_v53 (W : Valuation τ sig (Elt F)) (x2 : (⟨S64x512x512, .i32⟩ : BufTy).Contents (Elt F)) (h5 : W (Proc.devRef .tc main_v5) = val_main_v5 (F := F) x2) :
    after opsB W (Proc.devRef .tc main_v53) = val_main_v53 (F := F) x2 := by
  stretch_results; rw [h5]; rfl
set_option maxHeartbeats 4000000 in
theorem B_v4 (W : Valuation τ sig (Elt F)) : after opsB W (Proc.devRef .tc main_v4) = W (Proc.devRef .tc main_v4) := by
  stretch_results
set_option maxHeartbeats 4000000 in
theorem B_arg2 (W : Valuation τ sig (Elt F)) : after opsB W (Proc.devRef .tc main_arg2) = W (Proc.devRef .tc main_arg2) := by
  stretch_results

/-! ## The third stretch: the second gather, the sum, the mask, the rectifier -/

set_option maxHeartbeats 4000000 in
theorem C_v64 (W : Valuation τ sig (Elt F)) (x0 x1 : (⟨S64x512x128, .f32⟩ : BufTy).Contents (Elt F)) (x2 : (⟨S64x512x512, .i32⟩ : BufTy).Contents (Elt F)) (x3 : (⟨S2048x1, .f32⟩ : BufTy).Contents (Elt F))
    (h4 : W (Proc.devRef .tc main_v4) = val_main_v4 (F := F) x1 x3)
    (h33 : W (Proc.devRef .tc main_v33) = val_main_v33 (F := F) x0 x2 x3)
    (harg2 : W (Proc.devRef .tc main_arg2) = x2)
    (h51 : W (Proc.devRef .tc main_v51) = val_main_v51 (F := F)) (h52 : W (Proc.devRef .tc main_v52) = val_main_v52 (F := F))
    (h53 : W (Proc.devRef .tc main_v53) = val_main_v53 (F := F) x2) :
    after opsC W (Proc.devRef .tc main_v64) = val_main_v64 (F := F) x0 x1 x2 x3 := by
  stretch_results
  (try simp only [TRef.ofBuf, TRef.toBuf, cast_eq])
  rw [h4, h33, harg2, h51, h52, h53]
  rfl

/-! ## The whole line -/

/-- What the whole line leaves in the result buffer: the reference's last stage of the four argument arrays. -/
theorem after_ops_v64 (V : Valuation τ sig (Elt F)) :
    after (ops (F := F)) V (Proc.devRef .tc main_v64)
      = val_main_v64 (F := F) (V (Proc.devRef .tc main_arg0)) (V (Proc.devRef .tc main_arg1)) (V (Proc.devRef .tc main_arg2)) (V (Proc.devRef .tc main_arg3)) := by
  rw [ops_split, StableHlo.after_append, StableHlo.after_append]
  refine C_v64 _ _ _ _ _ ?_ ?_ ?_ ?_ ?_ ?_
  · rw [B_v4, A_v4]
  · exact B_v33 _ _ _ _ (A_v3 V) (A_v29 V) (A_v30 V) (A_v31 V)
  · rw [B_arg2, A_arg2]
  · exact B_v51 _ (A_v7 V)
  · exact B_v52 _ (A_v11 V)
  · exact B_v53 _ _ (A_v5 V)

set_option maxRecDepth 8192 in
set_option maxHeartbeats 8000000 in
/-- On every device, from any memory with zero counters: every weakly fair execution of the reference terminates with the
    result at its last stage of the four argument arrays, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v64)
        = val_main_v64 (F := F) (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v64).trans (after_ops_v64 _),
      (h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq defs main (fun _ => ops) main_eq (fun _ => ops_sub) m ρ)

end Cert.ReferenceIdeal.RefRun

end
-- ==== Proof.LoopPiecesBits.lean ====
/-
  The counted loop of the kernel body walks the four batch members of a block. Trip `k` loads member `k` of the edge
  block and of the two embedding blocks, computes one 512 × 512 slab of scores from them and from the two weight blocks read
  before the loop, and stores that slab as member `k` of the output block. The trip also loads the output member it is
  about to overwrite, and uses nothing of what it read there: so the stored slab, and with it the list of pieces the loop
  leaves, does not depend on what the output buffer held when the loop began.
-/
import proofs.«407953_j369367188027_3_alg».proof.Proof.Gen.Kernel.Loops
import Idealize.ShloMosaic.Lib.Pipeline.Value

set_option maxRecDepth 16384

noncomputable section

namespace Cert.Kernel.LoopPieces

open Idealize.ShloMosaic Idealize.ShloMosaic.TcCoe Idealize.ShloMosaic.Tactic
open Idealize.SL Idealize.SL.Sem
open Cert.Kernel Cert.Kernel.Gen

variable {F : FTy → Type} [FloatOps F]

/-- The slab of scores one trip computes: from the source-side weights `ws` and the destination-side weights `wd`
    (each 8 × 128), one member `e` of the edge block and one member `s`, `d` of each embedding block. -/
def slab (ws wd : Vec F S8x128 .f32) (e : Vec F S1x512x512 .i32) (s d : Vec F S1x512x128 .f32) : FVec F S1x512x512 .f32 :=
  k0_pay3 (k0_pay10 (k0_pay4 (k0_pay2 ws) s) (k0_pay5 (k0_pay1 wd) d) (k0_pay7 e) (k0_pay8 e)
    (k0_pay9 (k0_pay1 wd) (k0_pay2 ws) s d e))

/-- Member `k` of a buffer's contents, as trip `k` loads it. -/
abbrev edgesAt (arg1 : Memref sig .tc .vmem S4x512x512 .i32) (X : BufTy.Contents (Elt F) arg1.view.ty)
    (k : Fin k0_t1_loop.trips) : Vec F S1x512x512 .i32 :=
  View.readAt (Elt F) arg1.view (Rect.unit (s := S4x512x512) (k0_off2 k) S1x512x512.size (k0_off2_inb k)).toLoadRect X
abbrev embAt (arg : Memref sig .tc .vmem S4x512x128 .f32) (X : BufTy.Contents (Elt F) arg.view.ty)
    (k : Fin k0_t1_loop.trips) : Vec F S1x512x128 .f32 :=
  View.readAt (Elt F) arg.view (Rect.unit (s := S4x512x128) (k0_off1 k) S1x512x128.size (k0_off1_inb k)).toLoadRect X

/-- ONE TRIP'S PIECE: the slab of the members at `k`, stored as member `k`; whatever the output buffer held. -/
theorem tripL_eq (𝒱 : Variants) (c : Dev nD) (bd : Option 𝒱.V) (i : grid0.Coords) (arg1 : Memref sig .tc .vmem S4x512x512 .i32) (harg1 : arg1.IsWhole) (arg2 : Memref sig .tc .vmem S4x512x128 .f32) (harg2 : arg2.IsWhole) (arg3 : Memref sig .tc .vmem S4x512x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S4x512x512 .f32) (harg6 : arg6.IsWhole) (v0 : Vec F S8x128 .f32) (v3 : Vec F S8x128 .f32) (X_arg1 : BufTy.Contents (Elt F) arg1.view.ty) (X_arg2 : BufTy.Contents (Elt F) arg2.view.ty) (X_arg3 : BufTy.Contents (Elt F) arg3.view.ty) (k : Fin k0_t1_loop.trips) (f : BufTy.Contents (Elt F) arg6.view.ty) :
    tripL_k0_t1 (F := F) 𝒱 c bd i arg1 harg1 arg2 harg2 arg3 harg3 arg4 harg4 arg5 harg5 arg6 harg6 v0 v3 X_arg1 X_arg2 X_arg3 k f
      = [⟨Rect.unit (s := S4x512x512) (k0_off2 k) S1x512x512.size (k0_off2_inb k),
          slab v0 v3 (edgesAt arg1 X_arg1 k) (embAt arg2 X_arg2 k) (embAt arg3 X_arg3 k)⟩] := by
  unfold tripL_k0_t1 trip_k0_t1
  dsimp only
  sl_unfold_run_names
  rfl

/-- The pieces of the trips before `n` do not depend on the contents the loop started from. -/
theorem pb_indep (𝒱 : Variants) (c : Dev nD) (bd : Option 𝒱.V) (i : grid0.Coords) (arg1 : Memref sig .tc .vmem S4x512x512 .i32) (harg1 : arg1.IsWhole) (arg2 : Memref sig .tc .vmem S4x512x128 .f32) (harg2 : arg2.IsWhole) (arg3 : Memref sig .tc .vmem S4x512x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S4x512x512 .f32) (harg6 : arg6.IsWhole) (v0 : Vec F S8x128 .f32) (v3 : Vec F S8x128 .f32) (X_arg1 : BufTy.Contents (Elt F) arg1.view.ty) (X_arg2 : BufTy.Contents (Elt F) arg2.view.ty) (X_arg3 : BufTy.Contents (Elt F) arg3.view.ty) (G G' : BufTy.Contents (Elt F) arg6.view.ty) (n : ℕ) :
    pb_k0_t1 (F := F) 𝒱 c bd i arg1 harg1 arg2 harg2 arg3 harg3 arg4 harg4 arg5 harg5 arg6 harg6 v0 v3 X_arg1 X_arg2 X_arg3 G n = pb_k0_t1 (F := F) 𝒱 c bd i arg1 harg1 arg2 harg2 arg3 harg3 arg4 harg4 arg5 harg5 arg6 harg6 v0 v3 X_arg1 X_arg2 X_arg3 G' n := by
  induction n with
  | zero => rfl
  | succ n ih =>
    rw [pb_k0_t1.eq_2, pb_k0_t1.eq_2]
    unfold pb_k0_t1Step
    by_cases h : n < k0_t1_loop.trips
    · rw [dif_pos h, dif_pos h, tripL_eq, tripL_eq, ih]
    · rw [dif_neg h, dif_neg h, ih]

end Cert.Kernel.LoopPieces

end
-- ==== Proof.LoopPiecesIdeal.lean ====
/-
  The counted loop of the kernel body walks the four batch members of a block. Trip `k` loads member `k` of the edge
  block and of the two embedding blocks, computes one 512 × 512 slab of scores from them and from the two weight blocks read
  before the loop, and stores that slab as member `k` of the output block. The trip also loads the output member it is
  about to overwrite, and uses nothing of what it read there: so the stored slab, and with it the list of pieces the loop
  leaves, does not depend on what the output buffer held when the loop began.
-/
import proofs.«407953_j369367188027_3_alg».proof.Proof.Gen.KernelIdeal.Loops
import Idealize.ShloMosaic.Lib.Pipeline.Value

set_option maxRecDepth 16384

noncomputable section

namespace Cert.KernelIdeal.LoopPieces

open Idealize.ShloMosaic Idealize.ShloMosaic.TcCoe Idealize.ShloMosaic.Tactic
open Idealize.SL Idealize.SL.Sem
open Cert.KernelIdeal Cert.KernelIdeal.Gen

variable {F : FTy → Type} [FloatOps F]

/-- The slab of scores one trip computes: from the source-side weights `ws` and the destination-side weights `wd`
    (each 8 × 128), one member `e` of the edge block and one member `s`, `d` of each embedding block. -/
def slab (ws wd : Vec F S8x128 .f32) (e : Vec F S1x512x512 .i32) (s d : Vec F S1x512x128 .f32) : FVec F S1x512x512 .f32 :=
  k0_pay3 (k0_pay10 (k0_pay4 (k0_pay2 ws) s) (k0_pay5 (k0_pay1 wd) d) (k0_pay7 e) (k0_pay8 e)
    (k0_pay9 (k0_pay1 wd) (k0_pay2 ws) s d e))

/-- Member `k` of a buffer's contents, as trip `k` loads it. -/
abbrev edgesAt (arg1 : Memref sig .tc .vmem S4x512x512 .i32) (X : BufTy.Contents (Elt F) arg1.view.ty)
    (k : Fin k0_t1_loop.trips) : Vec F S1x512x512 .i32 :=
  View.readAt (Elt F) arg1.view (Rect.unit (s := S4x512x512) (k0_off2 k) S1x512x512.size (k0_off2_inb k)).toLoadRect X
abbrev embAt (arg : Memref sig .tc .vmem S4x512x128 .f32) (X : BufTy.Contents (Elt F) arg.view.ty)
    (k : Fin k0_t1_loop.trips) : Vec F S1x512x128 .f32 :=
  View.readAt (Elt F) arg.view (Rect.unit (s := S4x512x128) (k0_off1 k) S1x512x128.size (k0_off1_inb k)).toLoadRect X

/-- ONE TRIP'S PIECE: the slab of the members at `k`, stored as member `k`; whatever the output buffer held. -/
theorem tripL_eq (𝒱 : Variants) (c : Dev nD) (bd : Option 𝒱.V) (i : grid0.Coords) (arg1 : Memref sig .tc .vmem S4x512x512 .i32) (harg1 : arg1.IsWhole) (arg2 : Memref sig .tc .vmem S4x512x128 .f32) (harg2 : arg2.IsWhole) (arg3 : Memref sig .tc .vmem S4x512x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S4x512x512 .f32) (harg6 : arg6.IsWhole) (v0 : Vec F S8x128 .f32) (v3 : Vec F S8x128 .f32) (X_arg1 : BufTy.Contents (Elt F) arg1.view.ty) (X_arg2 : BufTy.Contents (Elt F) arg2.view.ty) (X_arg3 : BufTy.Contents (Elt F) arg3.view.ty) (k : Fin k0_t1_loop.trips) (f : BufTy.Contents (Elt F) arg6.view.ty) :
    tripL_k0_t1 (F := F) 𝒱 c bd i arg1 harg1 arg2 harg2 arg3 harg3 arg4 harg4 arg5 harg5 arg6 harg6 v0 v3 X_arg1 X_arg2 X_arg3 k f
      = [⟨Rect.unit (s := S4x512x512) (k0_off2 k) S1x512x512.size (k0_off2_inb k),
          slab v0 v3 (edgesAt arg1 X_arg1 k) (embAt arg2 X_arg2 k) (embAt arg3 X_arg3 k)⟩] := by
  unfold tripL_k0_t1 trip_k0_t1
  dsimp only
  sl_unfold_run_names
  rfl

/-- The pieces of the trips before `n` do not depend on the contents the loop started from. -/
theorem pb_indep (𝒱 : Variants) (c : Dev nD) (bd : Option 𝒱.V) (i : grid0.Coords) (arg1 : Memref sig .tc .vmem S4x512x512 .i32) (harg1 : arg1.IsWhole) (arg2 : Memref sig .tc .vmem S4x512x128 .f32) (harg2 : arg2.IsWhole) (arg3 : Memref sig .tc .vmem S4x512x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S4x512x512 .f32) (harg6 : arg6.IsWhole) (v0 : Vec F S8x128 .f32) (v3 : Vec F S8x128 .f32) (X_arg1 : BufTy.Contents (Elt F) arg1.view.ty) (X_arg2 : BufTy.Contents (Elt F) arg2.view.ty) (X_arg3 : BufTy.Contents (Elt F) arg3.view.ty) (G G' : BufTy.Contents (Elt F) arg6.view.ty) (n : ℕ) :
    pb_k0_t1 (F := F) 𝒱 c bd i arg1 harg1 arg2 harg2 arg3 harg3 arg4 harg4 arg5 harg5 arg6 harg6 v0 v3 X_arg1 X_arg2 X_arg3 G n = pb_k0_t1 (F := F) 𝒱 c bd i arg1 harg1 arg2 harg2 arg3 harg3 arg4 harg4 arg5 harg5 arg6 harg6 v0 v3 X_arg1 X_arg2 X_arg3 G' n := by
  induction n with
  | zero => rfl
  | succ n ih =>
    rw [pb_k0_t1.eq_2, pb_k0_t1.eq_2]
    unfold pb_k0_t1Step
    by_cases h : n < k0_t1_loop.trips
    · rw [dif_pos h, dif_pos h, tripL_eq, tripL_eq, ih]
    · rw [dif_neg h, dif_neg h, ih]

end Cert.KernelIdeal.LoopPieces

end
-- ==== Proof.BlockValue.lean ====
/-
  WHAT ONE GRID POINT LEAVES IN THE OUTPUT BLOCK, as one function of the five input blocks.

  A point's blocks hold four batch members. The body's loop stores, at trip `k`, the slab of scores of member `k` — computed
  from member `k` of the edge block and of the two embedding blocks and from the two weight blocks — as member `k` of the
  output block. The four slabs tile the block, so the block read back is, at `(q, i, j)`, entry `(i, j)` of member `q`'s slab.
-/
import proofs.«407953_j369367188027_3_alg».proof.Proof.FrameIdeal
import Idealize.ShloMosaic.Lib.Pipeline.Value
import Idealize.ShloMosaic.Lib.ValueIdx

set_option maxRecDepth 16384

noncomputable section

namespace Cert.KernelIdeal.BlockValue

open Idealize.ShloMosaic Idealize.ShloMosaic.TcCoe Idealize.ShloMosaic.ValueIdx
open Idealize.SL Idealize.SL.Sem
open Cert.KernelIdeal Cert.KernelIdeal.Gen Cert.KernelIdeal.GenP Cert.KernelIdeal.LoopPieces

variable {F : FTy → Type} [FloatOps F]

/-- Member `q` of a block of four members of `512 × n` entries. -/
def member {n : Nat} {e : EltTy} (x : (⟨3, ![4, 512, n]⟩ : Shape).Idx → Elt F e) (q : Fin 4) :
    (⟨3, ![1, 512, n]⟩ : Shape).Idx → Elt F e :=
  fun z => x (ix3 q (z 1) (z 2))

/-- Entry `(i, j)` of member `q`'s slab. -/
def blockAt (x0 : Vec F S4x512x512 .i32) (x1 x2 : Vec F S4x512x128 .f32) (x3 x4 : Vec F S8x128 .f32)
    (q : Fin 4) (i j : Fin 512) : Elt F .f32 :=
  slab x3 x4 (member x0 q) (member x1 q) (member x2 q) (ix3 (0 : Fin 1) i j)

/-- The output block as a function of the input blocks. -/
def blockFn (x0 : Vec F S4x512x512 .i32) (x1 x2 : Vec F S4x512x128 .f32) (x3 x4 : Vec F S8x128 .f32) :
    Vec F S4x512x512 .f32 :=
  fun y => blockAt x0 x1 x2 x3 x4 (y 0) (y 1) (y 2)

/-- A trip number is a member number: the loop has four trips. -/
theorem trip_lt (k : Fin k0_t1_loop.trips) : k.val < 4 := Nat.lt_of_lt_of_le k.isLt k0_t1_abs.2.1

/-- A whole 8 × 128 weight buffer loaded whole reads its contents. -/
theorem load_weights (arg : Memref sig .tc .vmem S8x128 .f32) (harg : arg.IsWhole) (x : Vec F S8x128 .f32) :
    View.readAt (Elt F) arg.view (Rect.unit (s := S8x128) ![0, 0] S8x128.size inb_S8x128_S8x128_0_0).toLoadRect (harg.unread x) = x := by
  rw [View.readAt_eq_ld, harg.read_unread, View.ld_unit_zero (S := S8x128) (by funext a; match a with | ⟨0, _⟩ => rfl | ⟨1, _⟩ => rfl)]

/-- Trip `k`'s load of the edge block reads member `k`. -/
theorem load_edges (arg : Memref sig .tc .vmem S4x512x512 .i32) (harg : arg.IsWhole) (x : Vec F S4x512x512 .i32)
    (k : Fin k0_t1_loop.trips) : edgesAt arg (harg.unread x) k = member x ⟨k.val, trip_lt k⟩ := by
  unfold edgesAt member
  rw [View.readAt_eq_ld, harg.read_unread]
  funext z
  show x _ = x _
  congr 1
  funext a
  refine Fin.ext ?_
  have h0 : k0_off2 k 0 = k.val := congrFun (k0_off2_eq k) 0
  have h1 : k0_off2 k 1 = 0 := congrFun (k0_off2_eq k) 1
  have h2 : k0_off2 k 2 = 0 := congrFun (k0_off2_eq k) 2
  match a with
  | ⟨0, _⟩ =>
    have hz : (z 0).val < 1 := (z 0).isLt
    show k0_off2 k 0 + 1 * (z 0).val = k.val
    omega
  | ⟨1, _⟩ =>
    show k0_off2 k 1 + 1 * (z 1).val = (z 1).val
    omega
  | ⟨2, _⟩ =>
    show k0_off2 k 2 + 1 * (z 2).val = (z 2).val
    omega

/-- Trip `k`'s load of an embedding block reads member `k`. -/
theorem load_emb (arg : Memref sig .tc .vmem S4x512x128 .f32) (harg : arg.IsWhole) (x : Vec F S4x512x128 .f32)
    (k : Fin k0_t1_loop.trips) : embAt arg (harg.unread x) k = member x ⟨k.val, trip_lt k⟩ := by
  unfold embAt member
  rw [View.readAt_eq_ld, harg.read_unread]
  funext z
  show x _ = x _
  congr 1
  funext a
  refine Fin.ext ?_
  have h0 : k0_off1 k 0 = k.val := congrFun (k0_off1_eq k) 0
  have h1 : k0_off1 k 1 = 0 := congrFun (k0_off1_eq k) 1
  have h2 : k0_off1 k 2 = 0 := congrFun (k0_off1_eq k) 2
  match a with
  | ⟨0, _⟩ =>
    have hz : (z 0).val < 1 := (z 0).isLt
    show k0_off1 k 0 + 1 * (z 0).val = k.val
    omega
  | ⟨1, _⟩ =>
    show k0_off1 k 1 + 1 * (z 1).val = (z 1).val
    omega
  | ⟨2, _⟩ =>
    show k0_off1 k 2 + 1 * (z 2).val = (z 2).val
    omega

/-- The slab stored at trip `k` is the block function read through the rectangle of member `k`. -/
theorem slab_piece (x0 : Vec F S4x512x512 .i32) (x1 x2 : Vec F S4x512x128 .f32) (x3 x4 : Vec F S8x128 .f32)
    (k : Fin k0_t1_loop.trips)
    (x : (Rect.unit (s := S4x512x512) (k0_off2 k) S1x512x512.size (k0_off2_inb k)).shape.Idx) :
    slab x3 x4 (member x0 ⟨k.val, trip_lt k⟩) (member x1 ⟨k.val, trip_lt k⟩) (member x2 ⟨k.val, trip_lt k⟩) x
      = blockFn x0 x1 x2 x3 x4 ((Rect.unit (s := S4x512x512) (k0_off2 k) S1x512x512.size (k0_off2_inb k)).emb x) := by
  have hx0 : (x 0).val < 1 := (x 0).isLt
  have e0 : ((Rect.unit (s := S4x512x512) (k0_off2 k) S1x512x512.size (k0_off2_inb k)).emb x 0 : Fin 4) = ⟨k.val, trip_lt k⟩ :=
    Fin.ext (by
      have h0 : k0_off2 k 0 = k.val := congrFun (k0_off2_eq k) 0
      show k0_off2 k 0 + 1 * (x 0).val = k.val
      omega)
  have e1 : ((Rect.unit (s := S4x512x512) (k0_off2 k) S1x512x512.size (k0_off2_inb k)).emb x 1 : Fin 512) = x 1 :=
    Fin.ext (by
      have h1 : k0_off2 k 1 = 0 := congrFun (k0_off2_eq k) 1
      show k0_off2 k 1 + 1 * (x 1).val = (x 1).val
      omega)
  have e2 : ((Rect.unit (s := S4x512x512) (k0_off2 k) S1x512x512.size (k0_off2_inb k)).emb x 2 : Fin 512) = x 2 :=
    Fin.ext (by
      have h2 : k0_off2 k 2 = 0 := congrFun (k0_off2_eq k) 2
      show k0_off2 k 2 + 1 * (x 2).val = (x 2).val
      omega)
  show _ = blockAt x0 x1 x2 x3 x4 _ _ _
  rw [e0, e1, e2]
  unfold blockAt
  congr 1
  funext a
  match a with
  | ⟨0, _⟩ => exact Fin.ext (by show (x 0).val = 0; omega)
  | ⟨1, _⟩ => rfl
  | ⟨2, _⟩ => rfl

/-- Every piece the loop's first `n` trips leave agrees with the block function (of the two weight blocks `v0`, `v3` the
    body read before the loop). -/
theorem pieces_agree (c : Dev nD) (i : grid0.Coords) (arg1 : Memref sig .tc .vmem S4x512x512 .i32) (harg1 : arg1.IsWhole) (arg2 : Memref sig .tc .vmem S4x512x128 .f32) (harg2 : arg2.IsWhole) (arg3 : Memref sig .tc .vmem S4x512x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S4x512x512 .f32) (harg6 : arg6.IsWhole)
    (x0 : Vec F S4x512x512 .i32) (x1 : Vec F S4x512x128 .f32) (x2 : Vec F S4x512x128 .f32) (v0 : Vec F S8x128 .f32) (v3 : Vec F S8x128 .f32)
    (G : BufTy.Contents (Elt F) arg6.view.ty) (n : ℕ) :
    ∀ p ∈ pb_k0_t1 (F := F) Variants.none c none i arg1 harg1 arg2 harg2 arg3 harg3 arg4 harg4 arg5 harg5 arg6 harg6
        v0 v3 (harg1.unread x0) (harg2.unread x1) (harg3.unread x2) G n,
      ∀ x : p.1.shape.Idx, p.2 x = blockFn x0 x1 x2 v0 v3 (p.1.emb x) := by
  induction n with
  | zero => intro p hp; exact absurd hp List.not_mem_nil
  | succ n ih =>
    intro p hp
    rw [pb_k0_t1.eq_2] at hp
    unfold pb_k0_t1Step at hp
    by_cases h : n < k0_t1_loop.trips
    · rw [dif_pos h, tripL_eq, load_edges, load_emb, load_emb] at hp
      rcases List.mem_append.mp hp with h1 | h2
      · obtain rfl := List.mem_singleton.mp h1
        intro x
        exact slab_piece x0 x1 x2 v0 v3 ⟨n, h⟩ x
      · exact ih p h2
    · rw [dif_neg h] at hp
      exact ih p hp

/-- WHAT A POINT LEAVES: the output block the run names is the block function of the point's input blocks. -/
theorem out0_eq (c : Dev nD) (i : grid0.Coords) (arg1 : Memref sig .tc .vmem S4x512x512 .i32) (harg1 : arg1.IsWhole) (arg2 : Memref sig .tc .vmem S4x512x128 .f32) (harg2 : arg2.IsWhole) (arg3 : Memref sig .tc .vmem S4x512x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S4x512x512 .f32) (harg6 : arg6.IsWhole)
    (x0 : Vec F S4x512x512 .i32) (x1 : Vec F S4x512x128 .f32) (x2 : Vec F S4x512x128 .f32) (x3 : Vec F S8x128 .f32) (x4 : Vec F S8x128 .f32) :
    out0_A_5 (F := F) c i arg1 harg1 arg2 harg2 arg3 harg3 arg4 harg4 arg5 harg5 arg6 harg6 x0 x1 x2 x3 x4
      = blockFn x0 x1 x2 x3 x4 := by
  unfold out0_A_5
  funext y
  rw [View.read_writes_apply_eq_canon _ _ y _ (cover0_A_5 c i arg1 harg1 arg2 harg2 arg3 harg3 arg4 harg4 arg5 harg5 arg6 harg6 x0 x1 x2 x3 x4 y)]
  refine (View.canon_apply_of_pieces (blockFn x0 x1 x2 _ _) _
    (pieces_agree c i arg1 harg1 arg2 harg2 arg3 harg3 arg4 harg4 arg5 harg5 arg6 harg6 x0 x1 x2 _ _ _ _) y
    (cover0_A_5 c i arg1 harg1 arg2 harg2 arg3 harg3 arg4 harg4 arg5 harg5 arg6 harg6 x0 x1 x2 x3 x4 y)).trans ?_
  rw [load_weights, load_weights]

end Cert.KernelIdeal.BlockValue

end
-- ==== Proof.Spec.lean ====
/-
  WHAT BOTH PROGRAMS COMPUTE, stated once over the four argument arrays, index by index.

  For a batch `b` and a pair of atoms `(i, j)`, the edge word `e = edges[b, i, j]` names a bond type: `e` clipped into
  `[0, 7]`. The weight vector `a : [2048, 1]` is eight rows of 256 entries; row `t` holds the source-side weights of bond
  type `t` in its first 128 entries and the destination-side weights in its last 128. The score of the pair is the
  projection of atom `i`'s source embedding on the source half of row `bond e` plus the projection of atom `j`'s
  destination embedding on the destination half of the same row; it counts only where `e ≥ 0` (zero otherwise), and the
  result is the leaky rectifier of slope `0.2` (the f32 word `0x3E4CCCCD`) of that.

  Everything here is over the extended reals (a float is an extended real, the operations are the exact ones), and no law of
  arithmetic beyond the commutativity of a product is ever needed to see that the two programs agree: they compute the same
  sums of the same products, and select among them by the same integer word.
-/
import Idealize.ShloMosaic.PureOps.Ideal
import Idealize.ShloMosaic.PureOps.Ideal.Laws
import Idealize.ShloMosaic.Lib.ValueIdx

noncomputable section

open scoped BigOperators

namespace Cert.EdgeScore

open Idealize.ShloMosaic Idealize.ShloMosaic.ValueIdx

/-- The embeddings' shape `[64, 512, 128]`, the edges' and the result's `[64, 512, 512]`, the weights' `[2048, 1]`. -/
abbrev SEmb : Shape := ⟨3, ![64, 512, 128]⟩
abbrev SPair : Shape := ⟨3, ![64, 512, 512]⟩
abbrev SWt : Shape := ⟨2, ![2048, 1]⟩

/-- The bond type an edge word names: the word clipped into `[0, 7]` (signed maximum with 0, then signed minimum with 7). -/
def bond (e : BitVec 32) : BitVec 32 := IntOp.minsi 7#32 (IntOp.maxsi 0#32 e)

/-- A clipped word is one of `0, …, 7`. -/
theorem bond_cases (e : BitVec 32) :
    bond e = 0#32 ∨ bond e = 1#32 ∨ bond e = 2#32 ∨ bond e = 3#32 ∨ bond e = 4#32 ∨ bond e = 5#32 ∨ bond e = 6#32
      ∨ bond e = 7#32 := by
  unfold bond IntOp.minsi IntOp.maxsi
  by_cases h0 : e.slt 0#32
  · rw [if_pos h0]; left
    rw [if_neg (by decide)]
  · rw [if_neg h0]
    by_cases h7 : (7#32 : BitVec 32).slt e
    · rw [if_pos h7]; right; right; right; right; right; right; right; rfl
    · rw [if_neg h7]
      have h0' : ¬ e.toInt < 0 := by simpa [BitVec.slt] using h0
      have h7' : ¬ (7 : Int) < e.toInt := by simpa [BitVec.slt] using h7
      have hnat : e.toNat < 8 := by
        have := BitVec.toInt_eq_toNat_cond e
        by_cases hm : 2 * e.toNat < 2 ^ 32
        · rw [if_pos hm] at this; omega
        · rw [if_neg hm] at this; omega
      have : e = BitVec.ofNat 32 e.toNat := by simp
      generalize e.toNat = n at hnat this
      subst this
      interval_cases n <;> simp

/-- The bond type as a row number. -/
def bondIx (e : BitVec 32) : Fin 8 := ⟨(bond e).toNat % 8, Nat.mod_lt _ (by decide)⟩

/-- Atom `(b, i)`'s source embedding projected on the source half of weight row `t`. -/
def projSrc (src : SEmb.Idx → EReal) (a : SWt.Idx → EReal) (b : Fin 64) (i : Fin 512) (t : Fin 8) : EReal :=
  ∑ d : Fin 128, src (ix3 b i d) * a (ix2 (⟨256 * t.val + d.val, by omega⟩ : Fin 2048) (0 : Fin 1))

/-- Atom `(b, j)`'s destination embedding projected on the destination half of weight row `t`. -/
def projDst (dst : SEmb.Idx → EReal) (a : SWt.Idx → EReal) (b : Fin 64) (j : Fin 512) (t : Fin 8) : EReal :=
  ∑ d : Fin 128, dst (ix3 b j d) * a (ix2 (⟨256 * t.val + 128 + d.val, by omega⟩ : Fin 2048) (0 : Fin 1))

/-- From the edge word `e` and the pair's score `g`: the score where the word is non-negative, zero elsewhere, then the leaky
    rectifier of slope `0.2`. -/
def act (e : BitVec 32) (g : EReal) : EReal :=
  Scalar.select
    (Ideal.cmp .oge (Scalar.select (IntOp.cmpi .sge e 0#32) g (Ideal.ofBits .f32 0x00000000#32)) (Ideal.ofBits .f32 0x00000000#32))
    (Scalar.select (IntOp.cmpi .sge e 0#32) g (Ideal.ofBits .f32 0x00000000#32))
    (Ideal.ofBits .f32 0x3E4CCCCD#32 * Scalar.select (IntOp.cmpi .sge e 0#32) g (Ideal.ofBits .f32 0x00000000#32))

/-- The result at batch `b` and pair `(i, j)`. -/
def entry (src dst : SEmb.Idx → EReal) (edges : SPair.Idx → BitVec 32) (a : SWt.Idx → EReal)
    (b : Fin 64) (i j : Fin 512) : EReal :=
  act (edges (ix3 b i j))
    (projSrc src a b i (bondIx (edges (ix3 b i j))) + projDst dst a b j (bondIx (edges (ix3 b i j))))

/-- THE RESULT ARRAY as one function of the four argument arrays. -/
def G (src dst : SEmb.Idx → EReal) (edges : SPair.Idx → BitVec 32) (a : SWt.Idx → EReal) : SPair.Idx → EReal :=
  fun y => entry src dst edges a (y 0) (y 1) (y 2)

theorem G_apply (src dst : SEmb.Idx → EReal) (edges : SPair.Idx → BitVec 32) (a : SWt.Idx → EReal)
    (b : Fin 64) (i j : Fin 512) : G src dst edges a (ix3 b i j) = entry src dst edges a b i j := rfl

end Cert.EdgeScore

end
-- ==== Proof.SlabValue.lean ====
/-
  THE SLAB OF SCORES ONE LOOP TRIP STORES, READ AT ONE ENTRY.

  Over the extended reals the body's arithmetic at the pair of atoms (i, j) is this. The two matrix products into a zero
  accumulator are plain sums of products: the source product at (i, t) is the sum over k of the source embedding of atom i
  at k times the source weight of bond type t at k (the weight block enters transposed, so row t is read along k), and the
  destination product at (t, j) is the sum over k of the destination weight of bond type t at k times the destination
  embedding of atom j at k; the narrowing of every operand to sixteen bits is the identity there. The edge word of the pair,
  clipped into [0, 7], is compared with 0, 1, …, 7 in turn, and step t of the chain of selects replaces the running value by
  column t of the source product at row i plus row t of the destination product at column j when the clipped word is t;
  a clipped word is one of the eight, so the chain ends with the step of that bond type, whatever it began with. What
  follows is entry by entry: zero where the edge word is negative, then the leaky rectifier of slope 0.2. The two factors of
  a destination product are commuted so that both sums read embedding times weight.
-/
import proofs.«407953_j369367188027_3_alg».proof.Proof.Spec
import proofs.«407953_j369367188027_3_alg».proof.Proof.LoopPiecesIdeal
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.SlabValue

open Idealize.ShloMosaic Idealize.ShloMosaic.ValueIdx Cert.KernelIdeal Cert.KernelIdeal.Gen Cert.EdgeScore

/-! ## The two matrix products at an index -/

theorem lhs_src_0 (j : S512x8.Idx) (q : dot_S512x128_S128x8_S512x8_1_0_0_1_n_n.contr.Idx) :
    (dot_S512x128_S128x8_S512x8_1_0_0_1_n_n.lhsIdx j q 0).val = (j 0).val := by
  unfold DotDims.lhsIdx
  rw [dif_neg (show ¬(0 : Fin S512x128.rank) ∈ dot_S512x128_S128x8_S512x8_1_0_0_1_n_n.lhsBatch by decide), dif_pos (show (0 : Fin S512x128.rank) ∈ dot_S512x128_S128x8_S512x8_1_0_0_1_n_n.lhsNonContracting by decide)]
  rfl
theorem lhs_src_1 (j : S512x8.Idx) (q : dot_S512x128_S128x8_S512x8_1_0_0_1_n_n.contr.Idx) :
    (dot_S512x128_S128x8_S512x8_1_0_0_1_n_n.lhsIdx j q 1).val = (q ⟨0, by decide⟩).val :=
  dot_S512x128_S128x8_S512x8_1_0_0_1_n_n.lhsIdx_val_of_single rfl j q
theorem rhs_src_0 (j : S512x8.Idx) (q : dot_S512x128_S128x8_S512x8_1_0_0_1_n_n.contr.Idx) :
    (dot_S512x128_S128x8_S512x8_1_0_0_1_n_n.rhsIdx j q 0).val = (q ⟨0, by decide⟩).val :=
  dot_S512x128_S128x8_S512x8_1_0_0_1_n_n.rhsIdx_val_of_single rfl j q
theorem rhs_src_1 (j : S512x8.Idx) (q : dot_S512x128_S128x8_S512x8_1_0_0_1_n_n.contr.Idx) :
    (dot_S512x128_S128x8_S512x8_1_0_0_1_n_n.rhsIdx j q 1).val = (j 1).val := by
  unfold DotDims.rhsIdx
  rw [dif_neg (show ¬(1 : Fin S128x8.rank) ∈ dot_S512x128_S128x8_S512x8_1_0_0_1_n_n.rhsBatch by decide), dif_pos (show (1 : Fin S128x8.rank) ∈ dot_S512x128_S128x8_S512x8_1_0_0_1_n_n.rhsNonContracting by decide)]
  rfl

theorem src_matmul_apply (x : FVec Ideal S512x128 .bf16) (w : FVec Ideal S128x8 .bf16) (i : Fin 512) (t : Fin 8) :
    matmul dot_S512x128_S128x8_S512x8_1_0_0_1_n_n none x w (constant S512x8 .f32 0x00000000#32) (ix2 i t)
      = ∑ k : Fin 128, x (ix2 i k) * w (ix2 k t) := by
  show FloatOps.matmul dot_S512x128_S128x8_S512x8_1_0_0_1_n_n none x w (constant S512x8 .f32 0x00000000#32) (ix2 i t) = _
  rw [Ideal.matmul_constant_zero_apply, ← Equiv.sum_comp (contrEquiv1 dot_S512x128_S128x8_S512x8_1_0_0_1_n_n 128 rfl rfl).symm]
  refine Finset.sum_congr rfl fun k _ => ?_
  have hk := contrEquiv1_symm_val dot_S512x128_S128x8_S512x8_1_0_0_1_n_n 128 rfl rfl k
  have el : dot_S512x128_S128x8_S512x8_1_0_0_1_n_n.lhsIdx (ix2 i t) ((contrEquiv1 dot_S512x128_S128x8_S512x8_1_0_0_1_n_n 128 rfl rfl).symm k) = ix2 i k := funext fun a => Fin.ext (by
    match a with
    | ⟨0, _⟩ => exact lhs_src_0 _ _
    | ⟨1, _⟩ => exact (lhs_src_1 _ _).trans hk)
  have er : dot_S512x128_S128x8_S512x8_1_0_0_1_n_n.rhsIdx (ix2 i t) ((contrEquiv1 dot_S512x128_S128x8_S512x8_1_0_0_1_n_n 128 rfl rfl).symm k) = ix2 k t := funext fun a => Fin.ext (by
    match a with
    | ⟨0, _⟩ => exact (rhs_src_0 _ _).trans hk
    | ⟨1, _⟩ => exact rhs_src_1 _ _)
  rw [el, er]

theorem lhs_dst_0 (j : S8x512.Idx) (q : dot_S8x128_S512x128_S8x512_1_1_0_0_n_n.contr.Idx) :
    (dot_S8x128_S512x128_S8x512_1_1_0_0_n_n.lhsIdx j q 0).val = (j 0).val := by
  unfold DotDims.lhsIdx
  rw [dif_neg (show ¬(0 : Fin S8x128.rank) ∈ dot_S8x128_S512x128_S8x512_1_1_0_0_n_n.lhsBatch by decide), dif_pos (show (0 : Fin S8x128.rank) ∈ dot_S8x128_S512x128_S8x512_1_1_0_0_n_n.lhsNonContracting by decide)]
  rfl
theorem lhs_dst_1 (j : S8x512.Idx) (q : dot_S8x128_S512x128_S8x512_1_1_0_0_n_n.contr.Idx) :
    (dot_S8x128_S512x128_S8x512_1_1_0_0_n_n.lhsIdx j q 1).val = (q ⟨0, by decide⟩).val :=
  dot_S8x128_S512x128_S8x512_1_1_0_0_n_n.lhsIdx_val_of_single rfl j q
theorem rhs_dst_0 (j : S8x512.Idx) (q : dot_S8x128_S512x128_S8x512_1_1_0_0_n_n.contr.Idx) :
    (dot_S8x128_S512x128_S8x512_1_1_0_0_n_n.rhsIdx j q 0).val = (j 1).val := by
  unfold DotDims.rhsIdx
  rw [dif_neg (show ¬(0 : Fin S512x128.rank) ∈ dot_S8x128_S512x128_S8x512_1_1_0_0_n_n.rhsBatch by decide), dif_pos (show (0 : Fin S512x128.rank) ∈ dot_S8x128_S512x128_S8x512_1_1_0_0_n_n.rhsNonContracting by decide)]
  rfl
theorem rhs_dst_1 (j : S8x512.Idx) (q : dot_S8x128_S512x128_S8x512_1_1_0_0_n_n.contr.Idx) :
    (dot_S8x128_S512x128_S8x512_1_1_0_0_n_n.rhsIdx j q 1).val = (q ⟨0, by decide⟩).val :=
  dot_S8x128_S512x128_S8x512_1_1_0_0_n_n.rhsIdx_val_of_single rfl j q

theorem dst_matmul_apply (w : FVec Ideal S8x128 .bf16) (x : FVec Ideal S512x128 .bf16) (t : Fin 8) (j : Fin 512) :
    matmul dot_S8x128_S512x128_S8x512_1_1_0_0_n_n none w x (constant S8x512 .f32 0x00000000#32) (ix2 t j)
      = ∑ k : Fin 128, w (ix2 t k) * x (ix2 j k) := by
  show FloatOps.matmul dot_S8x128_S512x128_S8x512_1_1_0_0_n_n none w x (constant S8x512 .f32 0x00000000#32) (ix2 t j) = _
  rw [Ideal.matmul_constant_zero_apply, ← Equiv.sum_comp (contrEquiv1 dot_S8x128_S512x128_S8x512_1_1_0_0_n_n 128 rfl rfl).symm]
  refine Finset.sum_congr rfl fun k _ => ?_
  have hk := contrEquiv1_symm_val dot_S8x128_S512x128_S8x512_1_1_0_0_n_n 128 rfl rfl k
  have el : dot_S8x128_S512x128_S8x512_1_1_0_0_n_n.lhsIdx (ix2 t j) ((contrEquiv1 dot_S8x128_S512x128_S8x512_1_1_0_0_n_n 128 rfl rfl).symm k) = ix2 t k := funext fun a => Fin.ext (by
    match a with
    | ⟨0, _⟩ => exact lhs_dst_0 _ _
    | ⟨1, _⟩ => exact (lhs_dst_1 _ _).trans hk)
  have er : dot_S8x128_S512x128_S8x512_1_1_0_0_n_n.rhsIdx (ix2 t j) ((contrEquiv1 dot_S8x128_S512x128_S8x512_1_1_0_0_n_n 128 rfl rfl).symm k) = ix2 j k := funext fun a => Fin.ext (by
    match a with
    | ⟨0, _⟩ => exact rhs_dst_0 _ _
    | ⟨1, _⟩ => exact (rhs_dst_1 _ _).trans hk)
  rw [el, er]

theorem pay1_apply (wd : Vec Ideal S8x128 .f32) (t : Fin 8) (k : Fin 128) :
    k0_pay1 (F := Ideal) wd (ix2 t k) = wd (ix2 t k) := by
  unfold k0_pay1
  show shapeCast S8x128 wd shapeCasts_S8x128_S8x128 (ix2 t k) = _
  rw [shapeCast_self]

theorem pay2_apply (ws : Vec Ideal S8x128 .f32) (k : Fin 128) (t : Fin 8) :
    k0_pay2 (F := Ideal) ws (ix2 k t) = ws (ix2 t k) := by
  unfold k0_pay2
  refine (transpose_ix2_apply _ transposes_S8x128_p1_0_S128x8 k t).trans ?_
  show shapeCast S8x128 ws shapeCasts_S8x128_S8x128 (ix2 t k) = _
  rw [shapeCast_self]

theorem pay4_apply (w : FVec Ideal S128x8 .bf16) (s : Vec Ideal S1x512x128 .f32) (i : Fin 512) (t : Fin 8) :
    k0_pay4 (F := Ideal) w s (ix2 i t) = ∑ k : Fin 128, s (ix3 (0 : Fin 1) i k) * w (ix2 k t) := by
  unfold k0_pay4
  refine (src_matmul_apply _ _ i t).trans ?_
  refine Finset.sum_congr rfl fun k _ => ?_
  exact congrArg (· * w (ix2 k t)) (shapeCast_1ab_ab_apply s shapeCasts_S1x512x128_S512x128 i k)

theorem pay5_apply (w : FVec Ideal S8x128 .bf16) (d : Vec Ideal S1x512x128 .f32) (t : Fin 8) (j : Fin 512) :
    k0_pay5 (F := Ideal) w d (ix2 t j) = ∑ k : Fin 128, w (ix2 t k) * d (ix3 (0 : Fin 1) j k) := by
  unfold k0_pay5
  refine (dst_matmul_apply _ _ t j).trans ?_
  refine Finset.sum_congr rfl fun k _ => ?_
  exact congrArg (w (ix2 t k) * ·) (shapeCast_1ab_ab_apply d shapeCasts_S1x512x128_S512x128 j k)

theorem src_apply (ws : Vec Ideal S8x128 .f32) (s : Vec Ideal S1x512x128 .f32) (i : Fin 512) (t : Fin 8) :
    k0_pay4 (F := Ideal) (k0_pay2 ws) s (ix2 i t) = ∑ k : Fin 128, s (ix3 (0 : Fin 1) i k) * ws (ix2 t k) := by
  rw [pay4_apply]
  exact Finset.sum_congr rfl fun k _ => congrArg (s (ix3 (0 : Fin 1) i k) * ·) (pay2_apply ws k t)

theorem dst_apply (wd : Vec Ideal S8x128 .f32) (d : Vec Ideal S1x512x128 .f32) (t : Fin 8) (j : Fin 512) :
    k0_pay5 (F := Ideal) (k0_pay1 wd) d (ix2 t j) = ∑ k : Fin 128, d (ix3 (0 : Fin 1) j k) * wd (ix2 t k) := by
  rw [pay5_apply]
  exact Finset.sum_congr rfl fun k _ => (congrArg (· * d (ix3 (0 : Fin 1) j k)) (pay1_apply wd t k)).trans (mul_comm _ _)

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## One step's summand: a column of the source product plus a row of the destination product -/

/-- Column `o` of `A` spread along the rows plus row `o` of `B` spread along the columns. -/
def stepV (A : FVec Ideal S512x8 .f32) (B : FVec Ideal S8x512 .f32) (o : ℕ)
    (hA : S512x8.Slices ![0, o] S512x1) (hB : S8x512.Slices ![o, 0] S1x512) : FVec Ideal S512x512 .f32 :=
  addf (broadcastTo S512x512 (extractStridedSlice S512x1 ![0, o] A hA) broadcasts_S512x1_S512x512)
    (broadcastTo S512x512 (extractStridedSlice S1x512 ![o, 0] B hB) broadcasts_S1x512_S512x512)

/-- At `(i, j)` it is `A` at `(i, o)` plus `B` at `(o, j)`. -/
theorem stepV_apply (A : FVec Ideal S512x8 .f32) (B : FVec Ideal S8x512 .f32) (o : ℕ) (t : Fin 8) (ht : t.val = o)
    (hA : S512x8.Slices ![0, o] S512x1) (hB : S8x512.Slices ![o, 0] S1x512) (i j : Fin 512) :
    stepV A B o hA hB (ix2 i j) = A (ix2 i t) + B (ix2 t j) := by
  unfold stepV
  rw [addf_apply, broadcastTo_a1_ab_apply _ broadcasts_S512x1_S512x512 i j,
    broadcastTo_1b_ab_apply _ broadcasts_S1x512_S512x512 i j,
    slice2_axis1_apply o A hA i (0 : Fin 1) t (by rw [ht]; rfl),
    slice2_axis0_apply o B hB (0 : Fin 1) j t (by rw [ht]; rfl)]

/-! ## The chain of selects over abstract values -/

/-- Steps 0, 1, 2 of the chain from `z`. -/
def chainLo {α : Type} (c : BitVec 32) (g : Fin 8 → α) (z : α) : α :=
  Scalar.select (IntOp.cmpi .eq c 2#32) (g 2)
    (Scalar.select (IntOp.cmpi .eq c 1#32) (g 1)
      (Scalar.select (IntOp.cmpi .eq c 0#32) (g 0) z))

/-- Steps 3, …, 7 of the chain from `p`. -/
def chainHi {α : Type} (c : BitVec 32) (g : Fin 8 → α) (p : α) : α :=
  Scalar.select (IntOp.cmpi .eq c 7#32) (g 7)
    (Scalar.select (IntOp.cmpi .eq c 6#32) (g 6)
      (Scalar.select (IntOp.cmpi .eq c 5#32) (g 5)
        (Scalar.select (IntOp.cmpi .eq c 4#32) (g 4)
          (Scalar.select (IntOp.cmpi .eq c 3#32) (g 3) p))))

/-- When the word is one of `0, …, 7` the whole chain is the summand of that number. -/
theorem chain_eq {α : Type} (c : BitVec 32) (g : Fin 8 → α) (z : α)
    (hc : c = 0#32 ∨ c = 1#32 ∨ c = 2#32 ∨ c = 3#32 ∨ c = 4#32 ∨ c = 5#32 ∨ c = 6#32 ∨ c = 7#32) :
    chainHi c g (chainLo c g z) = g ⟨c.toNat % 8, Nat.mod_lt _ (by decide)⟩ := by
  rcases hc with rfl | rfl | rfl | rfl | rfl | rfl | rfl | rfl <;> rfl

/-! ## The edge word's three readings -/

theorem pay6_apply (e : Vec Ideal S1x512x512 .i32) (i j : Fin 512) :
    k0_pay6 (F := Ideal) e (ix2 i j) = e (ix3 (0 : Fin 1) i j) := by
  unfold k0_pay6
  exact shapeCast_1ab_ab_apply e shapeCasts_S1x512x512_S512x512 i j

theorem pay7_apply (e : Vec Ideal S1x512x512 .i32) (i j : Fin 512) :
    k0_pay7 (F := Ideal) e (ix2 i j) = bond (e (ix3 (0 : Fin 1) i j)) := by
  unfold k0_pay7
  show IntOp.minsi 7#32 (IntOp.maxsi 0#32 (k0_pay6 (F := Ideal) e (ix2 i j))) = _
  rw [pay6_apply]
  rfl

theorem pay8_apply (e : Vec Ideal S1x512x512 .i32) (i j : Fin 512) :
    k0_pay8 (F := Ideal) e (ix2 i j) = IntOp.cmpi .sge (e (ix3 (0 : Fin 1) i j)) 0#32 := by
  unfold k0_pay8
  show IntOp.cmpi .sge (k0_pay6 (F := Ideal) e (ix2 i j)) 0#32 = _
  rw [pay6_apply]

/-! ## The two halves of the body at an index -/

/-- Steps 0, 1, 2 from zero. -/
theorem pay9_apply (v5 : FVec Ideal S8x128 .bf16) (v6 : FVec Ideal S128x8 .bf16) (v9 v13 : Vec Ideal S1x512x128 .f32)
    (v19 : Vec Ideal S1x512x512 .i32) (i j : Fin 512) :
    k0_pay9 (F := Ideal) v5 v6 v9 v13 v19 (ix2 i j)
      = chainLo (k0_pay7 (F := Ideal) v19 (ix2 i j))
          (fun t => k0_pay4 (F := Ideal) v6 v9 (ix2 i t) + k0_pay5 (F := Ideal) v5 v13 (ix2 t j))
          (Ideal.ofBits .f32 0x00000000#32) := by
  unfold k0_pay9
  show Scalar.select (IntOp.cmpi .eq (k0_pay7 (F := Ideal) v19 (ix2 i j)) 2#32)
      (stepV (k0_pay4 (F := Ideal) v6 v9) (k0_pay5 (F := Ideal) v5 v13) 2 slices_S512x8_o0_2_S512x1 slices_S8x512_o2_0_S1x512 (ix2 i j))
      (Scalar.select (IntOp.cmpi .eq (k0_pay7 (F := Ideal) v19 (ix2 i j)) 1#32)
        (stepV (k0_pay4 (F := Ideal) v6 v9) (k0_pay5 (F := Ideal) v5 v13) 1 slices_S512x8_o0_1_S512x1 slices_S8x512_o1_0_S1x512 (ix2 i j))
        (Scalar.select (IntOp.cmpi .eq (k0_pay7 (F := Ideal) v19 (ix2 i j)) 0#32)
          (stepV (k0_pay4 (F := Ideal) v6 v9) (k0_pay5 (F := Ideal) v5 v13) 0 slices_S512x8_o0_0_S512x1 slices_S8x512_o0_0_S1x512 (ix2 i j))
          (Ideal.ofBits .f32 0x00000000#32))) = _
  rw [stepV_apply _ _ 2 2 rfl, stepV_apply _ _ 1 1 rfl, stepV_apply _ _ 0 0 rfl]
  rfl

/-- Zero where the validity bit is clear, then the leaky rectifier. -/
def tail (k : BitVec 1) (g : EReal) : EReal :=
  Scalar.select
    (Ideal.cmp .oge (Scalar.select k g (Ideal.ofBits .f32 0x00000000#32)) (Ideal.ofBits .f32 0x00000000#32))
    (Scalar.select k g (Ideal.ofBits .f32 0x00000000#32))
    (Ideal.ofBits .f32 0x3E4CCCCD#32 * Scalar.select k g (Ideal.ofBits .f32 0x00000000#32))

theorem act_eq_tail (e : BitVec 32) (g : EReal) : act e g = tail (IntOp.cmpi .sge e 0#32) g := rfl

/-- Steps 3, …, 7 from the running value, then the tail. -/
theorem pay10_apply (A : FVec Ideal S512x8 .f32) (B : FVec Ideal S8x512 .f32) (C : IVec S512x512 32) (K : IVec S512x512 1)
    (P : FVec Ideal S512x512 .f32) (i j : Fin 512) :
    k0_pay10 (F := Ideal) A B C K P (ix2 i j)
      = tail (K (ix2 i j)) (chainHi (C (ix2 i j)) (fun t => A (ix2 i t) + B (ix2 t j)) (P (ix2 i j))) := by
  unfold k0_pay10
  show tail (K (ix2 i j))
      (Scalar.select (IntOp.cmpi .eq (C (ix2 i j)) 7#32) (stepV A B 7 slices_S512x8_o0_7_S512x1 slices_S8x512_o7_0_S1x512 (ix2 i j))
        (Scalar.select (IntOp.cmpi .eq (C (ix2 i j)) 6#32) (stepV A B 6 slices_S512x8_o0_6_S512x1 slices_S8x512_o6_0_S1x512 (ix2 i j))
          (Scalar.select (IntOp.cmpi .eq (C (ix2 i j)) 5#32) (stepV A B 5 slices_S512x8_o0_5_S512x1 slices_S8x512_o5_0_S1x512 (ix2 i j))
            (Scalar.select (IntOp.cmpi .eq (C (ix2 i j)) 4#32) (stepV A B 4 slices_S512x8_o0_4_S512x1 slices_S8x512_o4_0_S1x512 (ix2 i j))
              (Scalar.select (IntOp.cmpi .eq (C (ix2 i j)) 3#32) (stepV A B 3 slices_S512x8_o0_3_S512x1 slices_S8x512_o3_0_S1x512 (ix2 i j))
                (P (ix2 i j))))))) = _
  rw [stepV_apply _ _ 7 7 rfl, stepV_apply _ _ 6 6 rfl, stepV_apply _ _ 5 5 rfl, stepV_apply _ _ 4 4 rfl,
    stepV_apply _ _ 3 3 rfl]
  rfl

/-! ## The slab at an entry -/

theorem slab_apply (ws wd : Vec Ideal S8x128 .f32) (e : Vec Ideal S1x512x512 .i32) (s d : Vec Ideal S1x512x128 .f32) (i j : Fin 512) :
    Cert.KernelIdeal.LoopPieces.slab (F := Ideal) ws wd e s d (ix3 (0 : Fin 1) i j)
      = act (e (ix3 (0 : Fin 1) i j))
          ((∑ k : Fin 128, s (ix3 (0 : Fin 1) i k) * ws (ix2 (bondIx (e (ix3 (0 : Fin 1) i j))) k))
            + ∑ k : Fin 128, d (ix3 (0 : Fin 1) j k) * wd (ix2 (bondIx (e (ix3 (0 : Fin 1) i j))) k)) := by
  unfold Cert.KernelIdeal.LoopPieces.slab k0_pay3
  refine (shapeCast_ab_1ab_apply _ shapeCasts_S512x512_S1x512x512 (0 : Fin 1) i j).trans ?_
  rw [pay10_apply, pay9_apply, pay7_apply, pay8_apply, act_eq_tail,
    chain_eq _ _ _ (bond_cases (e (ix3 (0 : Fin 1) i j)))]
  show tail _ (k0_pay4 (F := Ideal) (k0_pay2 ws) s (ix2 i (bondIx (e (ix3 (0 : Fin 1) i j))))
      + k0_pay5 (F := Ideal) (k0_pay1 wd) d (ix2 (bondIx (e (ix3 (0 : Fin 1) i j))) j)) = _
  rw [src_apply, dst_apply]

end Cert.KernelIdeal.SlabValue

end
-- ==== Proof.ArrayValue.lean ====
/-
  FROM BLOCKS TO THE ARRAY. The grid has sixteen points; point `t` stages members `4t … 4t+3` of the edge array and of the two
  embedding arrays, both weight matrices whole, and writes back members `4t … 4t+3` of the result. The two weight matrices are
  the halves of the weight vector's eight rows of 256: entry `(r, k)` of the source-side matrix is `a[256 r + k]`, of the
  destination-side matrix `a[256 r + 128 + k]`. So what point `t` writes back is block `t` of the specification's array, the
  blocks tile the result, and the result array after the run is the specification's function of the four argument arrays.
-/
import proofs.«407953_j369367188027_3_alg».proof.Proof.ValueIdeal
import proofs.«407953_j369367188027_3_alg».proof.Proof.BlockValue
import proofs.«407953_j369367188027_3_alg».proof.Proof.Spec
import proofs.«407953_j369367188027_3_alg».proof.Proof.SlabValue
import Idealize.ShloMosaic.Lib.Pipeline.Value
import Idealize.ShloMosaic.Lib.ValueIdx
import Idealize.ShloMosaic.Lib.StableHlo.Run

set_option maxRecDepth 16384

noncomputable section

namespace Cert.KernelIdeal.ArrayValue

open Idealize.ShloMosaic Idealize.ShloMosaic.TcCoe Idealize.ShloMosaic.ValueIdx Idealize.ShloMosaic.StableHlo
open Idealize.SL Idealize.SL.Sem
open Idealize.ShloMosaic.Pipeline (Dat)
open Cert.KernelIdeal Cert.KernelIdeal.Gen Cert.KernelIdeal.GenP Cert.KernelIdeal.LoopPieces Cert.KernelIdeal.BlockValue
open Cert.EdgeScore

variable (m : (ℓ : Loc nD τ sig) → Buf (Elt Ideal) ℓ) (ρ : Dev nD → PrngReg)

/-- The four argument arrays on core `c`, by their literal types. -/
abbrev srcArr (c : Dev nD) : Vec Ideal S64x512x128 .f32 := m ((c : Thread nD τ).loc main_arg0)
abbrev dstArr (c : Dev nD) : Vec Ideal S64x512x128 .f32 := m ((c : Thread nD τ).loc main_arg1)
abbrev edgeArr (c : Dev nD) : Vec Ideal S64x512x512 .i32 := m ((c : Thread nD τ).loc main_arg2)
abbrev wtArr (c : Dev nD) : Vec Ideal S2048x1 .f32 := m ((c : Thread nD τ).loc main_arg3)

/-- The specification's array of the arguments on core `c`. -/
abbrev spec (c : Dev nD) : Vec Ideal S64x512x512 .f32 := G (srcArr m c) (dstArr m c) (edgeArr m c) (wtArr m c)

/-- The five input blocks of point `t`, by their literal types. -/
abbrev eblk (c : Dev nD) (t : Fin cfg0.N) : Vec Ideal S4x512x512 .i32 := iblk m c 0 t
abbrev sblk (c : Dev nD) (t : Fin cfg0.N) : Vec Ideal S4x512x128 .f32 := iblk m c 1 t
abbrev dblk (c : Dev nD) (t : Fin cfg0.N) : Vec Ideal S4x512x128 .f32 := iblk m c 2 t
abbrev wsblk (c : Dev nD) (t : Fin cfg0.N) : Vec Ideal S8x128 .f32 := iblk m c 3 t
abbrev wdblk (c : Dev nD) (t : Fin cfg0.N) : Vec Ideal S8x128 .f32 := iblk m c 4 t

/-- The printed index maps, decided over the sixteen points: the three batched inputs and the output move with the point
    along the batch axis; the weight blocks stay. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 3) = t.val ∧ win0_5.index t (1 : Fin 3) = 0 ∧ win0_5.index t (2 : Fin 3) = 0) :=
  (by decide +kernel : ∀ t : Fin grid0.N, _)

theorem point_lt (t : Fin cfg0.N) : t.val < 16 := t.isLt

/-- Entry `(q, i, j)` of point `t`'s edge block is the edge array's at member `4t + q`. -/
theorem eblk_apply (c : Dev nD) (t : Fin cfg0.N) (q : Fin 4) (i j : Fin 512) :
    eblk m c t (ix3 q i j) = edgeArr m c (ix3 (⟨4 * t.val + q.val, by have := point_lt t; omega⟩ : Fin 64) i j) := by
  unfold eblk iblk
  rw [View.read_apply]
  show V m c main_arg2 _ = _
  rw [V_main_arg2]
  obtain ⟨⟨e0, e1, e2⟩, -⟩ := idx_facts t
  show edgeArr m c _ = edgeArr m c _
  congr 1
  funext a
  refine Fin.ext ?_
  match a with
  | ⟨0, _⟩ => show win0_0.index t (0 : Fin 3) * 4 + 1 * q.val = 4 * t.val + q.val; omega
  | ⟨1, _⟩ => show win0_0.index t (1 : Fin 3) * 512 + 1 * i.val = i.val; omega
  | ⟨2, _⟩ => show win0_0.index t (2 : Fin 3) * 512 + 1 * j.val = j.val; omega

/-- Entry `(q, i, k)` of point `t`'s source embedding block is the source embedding array's at member `4t + q`. -/
theorem sblk_apply (c : Dev nD) (t : Fin cfg0.N) (q : Fin 4) (i : Fin 512) (k : Fin 128) :
    sblk m c t (ix3 q i k) = srcArr m c (ix3 (⟨4 * t.val + q.val, by have := point_lt t; omega⟩ : Fin 64) i k) := by
  unfold sblk iblk
  rw [View.read_apply]
  show V m c main_arg0 _ = _
  rw [V_main_arg0]
  obtain ⟨h0, h1, h2, -⟩ := idx_facts t
  show srcArr m c _ = srcArr m c _
  congr 1
  funext a
  refine Fin.ext ?_
  match a with
  | ⟨0, _⟩ => show win0_1.index t (0 : Fin 3) * 4 + 1 * q.val = 4 * t.val + q.val; omega
  | ⟨1, _⟩ => show win0_1.index t (1 : Fin 3) * 512 + 1 * i.val = i.val; omega
  | ⟨2, _⟩ => show win0_1.index t (2 : Fin 3) * 128 + 1 * k.val = k.val; omega

/-- Entry `(q, i, k)` of point `t`'s destination embedding block is the destination embedding array's at member `4t + q`. -/
theorem dblk_apply (c : Dev nD) (t : Fin cfg0.N) (q : Fin 4) (i : Fin 512) (k : Fin 128) :
    dblk m c t (ix3 q i k) = dstArr m c (ix3 (⟨4 * t.val + q.val, by have := point_lt t; omega⟩ : Fin 64) i k) := by
  unfold dblk iblk
  rw [View.read_apply]
  show V m c main_arg1 _ = _
  rw [V_main_arg1]
  obtain ⟨h0, h1, h2, -⟩ := idx_facts t
  show dstArr m c _ = dstArr m c _
  congr 1
  funext a
  refine Fin.ext ?_
  match a with
  | ⟨0, _⟩ => show win0_2.index t (0 : Fin 3) * 4 + 1 * q.val = 4 * t.val + q.val; omega
  | ⟨1, _⟩ => show win0_2.index t (1 : Fin 3) * 512 + 1 * i.val = i.val; omega
  | ⟨2, _⟩ => show win0_2.index t (2 : Fin 3) * 128 + 1 * k.val = k.val; omega

/-! ## The two weight matrices: the host's reshape and slices of the weight vector -/

/-- Entry `(r, k)` of the first 128 columns of the weight vector's eight rows of 256. -/
theorem wsrc_read (x3 : Vec Ideal S2048x1 .f32) (r : Fin 8) (k : Fin 128) :
    extractStridedSlice S8x128 ![0, 0] (shapeCast S8x256 x3 shapeCasts_S2048x1_S8x256) slices_S8x256_S8x128_0_0 (ix2 r k)
      = x3 (ix2 (⟨256 * r.val + k.val, by omega⟩ : Fin 2048) (0 : Fin 1)) := by
  rw [extractStridedSlice_apply ![0, 0] _ slices_S8x256_S8x128_0_0 (ix2 r k) (ix2 r (⟨k.val, by omega⟩ : Fin 256))
    (fun a => match a with
      | ⟨0, _⟩ => by show r.val = 0 + r.val; omega
      | ⟨1, _⟩ => by show k.val = 0 + k.val; omega)]
  exact shapeCast_apply x3 shapeCasts_S2048x1_S8x256 _ _ (by
    rw [Shape.rowMajor_val_two, Shape.rowMajor_val_two]
    show (256 * r.val + k.val) * 1 + 0 = r.val * 256 + k.val; omega)

/-- Entry `(r, k)` of the last 128 columns. -/
theorem wdst_read (x3 : Vec Ideal S2048x1 .f32) (r : Fin 8) (k : Fin 128) :
    extractStridedSlice S8x128 ![0, 128] (shapeCast S8x256 x3 shapeCasts_S2048x1_S8x256) slices_S8x256_S8x128_0_128 (ix2 r k)
      = x3 (ix2 (⟨256 * r.val + 128 + k.val, by omega⟩ : Fin 2048) (0 : Fin 1)) := by
  rw [extractStridedSlice_apply ![0, 128] _ slices_S8x256_S8x128_0_128 (ix2 r k) (ix2 r (⟨128 + k.val, by omega⟩ : Fin 256))
    (fun a => match a with
      | ⟨0, _⟩ => by show r.val = 0 + r.val; omega
      | ⟨1, _⟩ => by show 128 + k.val = 128 + k.val; rfl)]
  exact shapeCast_apply x3 shapeCasts_S2048x1_S8x256 _ _ (by
    rw [Shape.rowMajor_val_two, Shape.rowMajor_val_two]
    show (256 * r.val + 128 + k.val) * 1 + 0 = r.val * 256 + (128 + k.val); omega)

/-- The source-side weight matrix as the region finds it: the host's slice of the reshaped weight vector. -/
theorem V_wsrc (c : Dev nD) : (V m c main_v1 : S8x128.Idx → EReal)
    = extractStridedSlice S8x128 ![0, 0] (shapeCast S8x256 (wtArr m c) shapeCasts_S2048x1_S8x256) slices_S8x256_S8x128_0_0 := by
  dsimp only [Gen.V, Gen.hostOps0]; after_results; rfl

/-- The destination-side weight matrix as the region finds it. -/
theorem V_wdst (c : Dev nD) : (V m c main_v2 : S8x128.Idx → EReal)
    = extractStridedSlice S8x128 ![0, 128] (shapeCast S8x256 (wtArr m c) shapeCasts_S2048x1_S8x256) slices_S8x256_S8x128_0_128 := by
  dsimp only [Gen.V, Gen.hostOps0]; after_results; rfl

/-- Entry `(r, k)` of the source-side weight block, at every point: `a[256 r + k]`. -/
theorem wsblk_apply (c : Dev nD) (t : Fin cfg0.N) (r : Fin 8) (k : Fin 128) :
    wsblk m c t (ix2 r k) = wtArr m c (ix2 (⟨256 * r.val + k.val, by omega⟩ : Fin 2048) (0 : Fin 1)) := by
  unfold wsblk iblk
  rw [View.read_apply]
  show V m c main_v1 _ = _
  rw [V_wsrc]
  obtain ⟨-, -, -, ⟨e0, e1⟩, -⟩ := idx_facts t
  have hemb : ((cfg0.win 3).blk t).view.emb (ix2 r k) = (ix2 r k : S8x128.Idx) := by
    funext a
    refine Fin.ext ?_
    match a with
    | ⟨0, _⟩ => show win0_3.index t (0 : Fin 2) * 8 + 1 * r.val = r.val; omega
    | ⟨1, _⟩ => show win0_3.index t (1 : Fin 2) * 128 + 1 * k.val = k.val; omega
  rw [hemb]
  exact wsrc_read (wtArr m c) r k

/-- Entry `(r, k)` of the destination-side weight block, at every point: `a[256 r + 128 + k]`. -/
theorem wdblk_apply (c : Dev nD) (t : Fin cfg0.N) (r : Fin 8) (k : Fin 128) :
    wdblk m c t (ix2 r k) = wtArr m c (ix2 (⟨256 * r.val + 128 + k.val, by omega⟩ : Fin 2048) (0 : Fin 1)) := by
  unfold wdblk iblk
  rw [View.read_apply]
  show V m c main_v2 _ = _
  rw [V_wdst]
  obtain ⟨-, -, -, -, ⟨e0, e1⟩, -⟩ := idx_facts t
  have hemb : ((cfg0.win 4).blk t).view.emb (ix2 r k) = (ix2 r k : S8x128.Idx) := by
    funext a
    refine Fin.ext ?_
    match a with
    | ⟨0, _⟩ => show win0_4.index t (0 : Fin 2) * 8 + 1 * r.val = r.val; omega
    | ⟨1, _⟩ => show win0_4.index t (1 : Fin 2) * 128 + 1 * k.val = k.val; omega
  rw [hemb]
  exact wdst_read (wtArr m c) r k

/-! ## What a point writes back, the cover, the array -/

/-- Entry `(q, i, j)` of the block function of point `t`'s input blocks is the specification's entry at member `4t + q`. -/
theorem blockAt_eq (c : Dev nD) (t : Fin cfg0.N) (q : Fin 4) (i j : Fin 512) :
    blockAt (F := Ideal) (eblk m c t) (sblk m c t) (dblk m c t) (wsblk m c t) (wdblk m c t) q i j
      = entry (srcArr m c) (dstArr m c) (edgeArr m c) (wtArr m c) (⟨4 * t.val + q.val, by have := point_lt t; omega⟩ : Fin 64) i j := by
  unfold blockAt
  rw [Cert.KernelIdeal.SlabValue.slab_apply]
  unfold entry projSrc projDst
  have he : member (F := Ideal) (eblk m c t) q (ix3 (0 : Fin 1) i j)
      = edgeArr m c (ix3 (⟨4 * t.val + q.val, by have := point_lt t; omega⟩ : Fin 64) i j) := eblk_apply m c t q i j
  rw [he]
  congr 1
  congr 1
  · refine Finset.sum_congr rfl fun k _ => ?_
    have hs : member (F := Ideal) (sblk m c t) q (ix3 (0 : Fin 1) i k)
        = srcArr m c (ix3 (⟨4 * t.val + q.val, by have := point_lt t; omega⟩ : Fin 64) i k) := sblk_apply m c t q i k
    rw [hs, wsblk_apply]
  · refine Finset.sum_congr rfl fun k _ => ?_
    have hd : member (F := Ideal) (dblk m c t) q (ix3 (0 : Fin 1) j k)
        = dstArr m c (ix3 (⟨4 * t.val + q.val, by have := point_lt t; omega⟩ : Fin 64) j k) := dblk_apply m c t q j k
    rw [hd, wdblk_apply]

/-- WHAT POINT `t` WRITES BACK is block `t` of the specification's array. -/
theorem flushed_eq (c : Dev nD) (t : Fin cfg0.N) :
    (dats m 0 c).flushed 5 t = ((cfg0.win 5).blk t).view.read (Elt Ideal) (spec m c) := by
  rw [Cert.KernelIdeal.ValueP.flushed5_A, out0_eq]
  obtain ⟨-, -, -, -, -, ⟨e0, e1, e2⟩⟩ := idx_facts t
  funext y
  show blockFn (F := Ideal) (eblk m c t) (sblk m c t) (dblk m c t) (wsblk m c t) (wdblk m c t) y
    = spec m c (((cfg0.win 5).blk t).view.emb y)
  have hy0 : (y 0).val < 4 := (y 0).isLt
  have hemb : ((cfg0.win 5).blk t).view.emb y
      = (ix3 (⟨4 * t.val + (y 0).val, by have := point_lt t; omega⟩ : Fin 64) (y 1) (y 2) : S64x512x512.Idx) := by
    funext a
    refine Fin.ext ?_
    match a with
    | ⟨0, _⟩ => show win0_5.index t (0 : Fin 3) * 4 + 1 * (y 0).val = 4 * t.val + (y 0).val; omega
    | ⟨1, _⟩ => show win0_5.index t (1 : Fin 3) * 512 + 1 * (y 1).val = (y 1).val; omega
    | ⟨2, _⟩ => show win0_5.index t (2 : Fin 3) * 512 + 1 * (y 2).val = (y 2).val; omega
  rw [hemb]
  exact blockAt_eq m c t (y 0) (y 1) (y 2)

/-- An index of the result is in point `t`'s block iff each coordinate is in the block's range on its axis. -/
theorem mem_blk (t : Fin cfg0.N) (i : S64x512x512.Idx) :
    i ∈ ((cfg0.win 5).blk t).view.set ↔ ∀ a : Fin 3, win0_5.index t a * S4x512x512.size a ≤ (i a).val ∧ (i a).val < win0_5.index t a * S4x512x512.size a + S4x512x512.size a := by
  show i ∈ ((View.whole main_v3).slice (win0_5.rect t)).set ↔ _
  rw [View.set_slice_whole, Rect.mem_set_unit]
  exact Iff.rfl

/-- The sixteen blocks tile the result: member `b` lies in the block of point `b / 4`. -/
theorem cover (i : S64x512x512.Idx) :
    ∃ t : Fin cfg0.N, (cfg0.win 5).flush t = true ∧ i ∈ ((cfg0.win 5).blk t).view.set := by
  have hi0 : (i 0).val < 64 := (i 0).isLt
  have hi1 : (i 1).val < 512 := (i 1).isLt
  have hi2 : (i 2).val < 512 := (i 2).isLt
  let t : Fin cfg0.N := ⟨(i 0).val / 4, by show (i 0).val / 4 < 16; omega⟩
  obtain ⟨-, -, -, -, -, ⟨e0, e1, e2⟩⟩ := idx_facts t
  have ht : t.val = (i 0).val / 4 := rfl
  refine ⟨t, flush0_5 t, ?_⟩
  rw [mem_blk]
  intro a
  match a with
  | ⟨0, _⟩ => show win0_5.index t (0 : Fin 3) * 4 ≤ (i 0).val ∧ (i 0).val < win0_5.index t (0 : Fin 3) * 4 + 4; omega
  | ⟨1, _⟩ => show win0_5.index t (1 : Fin 3) * 512 ≤ (i 1).val ∧ (i 1).val < win0_5.index t (1 : Fin 3) * 512 + 512; omega
  | ⟨2, _⟩ => show win0_5.index t (2 : Fin 3) * 512 ≤ (i 2).val ∧ (i 2).val < win0_5.index t (2 : Fin 3) * 512 + 512; omega

/-- THE RESULT ARRAY after the run is the specification's function of the four argument arrays. -/
theorem final (c : Dev nD) : (dats m 0 c).arrAt 5 cfg0.N = spec m c :=
  (dats m 0 c).arrAt_eq_of_cover 5 (spec m c) (fun t _ => flushed_eq m c t) (cover)

/-- The kernel's run: every weakly fair execution terminates with the result array at the specification's function of the
    arguments, the arguments unchanged. -/
theorem run : θ_run defs (onTc (τ := τ) (main (F := Ideal))) ⟨m, fun _ => 0, ρ⟩ fun r => ∀ c : Dev nD,
      r.2.mem ((c : Thread nD τ).loc main_v3) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.ValueP.run_blocks m ρ)

end Cert.KernelIdeal.ArrayValue

end
-- ==== Proof.LibGatherPoints3.lean ====
/-
  A POINT GATHER OF A RANK-3 ARRAY, read at an index.

  What `x[p, q, r]` of an array `x : [N, M, K]` at three integer arrays `p, q, r : [A, B, C]` lowers to: a
  `stablehlo.gather` whose start indices are the three arrays stacked on a trailing axis of size 3 (`[A, B, C, 3]`),
  every operand axis collapsed (slice sizes `[1, 1, 1]`), start_index_map `[0, 1, 2]` and index_vector_dim 3. Result
  element `(a, b, c)` is `x` at the three start-index components `idx[a, b, c, 0]`, `idx[a, b, c, 1]`,
  `idx[a, b, c, 2]`, each read as a signed integer and clamped into its axis (`[0, N - 1]`, `[0, M - 1]`,
  `[0, K - 1]`), as StableHLO's gather clamps every start index.
-/
import Idealize.ShloMosaic.PureOps.ShapeOps
import Idealize.ShloMosaic.Lib.ValueIdx

namespace Idealize.ShloMosaic.GatherPoints3

open Idealize.ShloMosaic Idealize.ShloMosaic.ValueIdx

variable {α : Type}

/-- The dimension numbers of the point gather of an operand `[N, M, K]` at start indices `[A, B, C, 3]`, result
    `[A, B, C]`; their conditions `wf` are decided on a program's literal shapes. -/
abbrev pointDims (N M K A B C : Nat)
    (wf : GatherDims.WF ⟨3, ![N, M, K]⟩ ⟨4, ![A, B, C, 3]⟩ ⟨3, ![A, B, C]⟩ [] [0, 1, 2] [] [0, 1, 2] [] 3 ![1, 1, 1]) :
    GatherDims ⟨3, ![N, M, K]⟩ ⟨4, ![A, B, C, 3]⟩ ⟨3, ![A, B, C]⟩ where
  offsetDims := []
  collapsedSliceDims := [0, 1, 2]
  operandBatchingDims := []
  startIndicesBatchingDims := []
  startIndexMap := [0, 1, 2]
  indexVectorDim := 3
  sliceSizes := ![1, 1, 1]
  wf := wf

/-- The clamped start on operand axis 0: component 0 of the start index stored at `(a, b, c, ·)`. -/
theorem start_zero {N M K A B C w : Nat}
    (wf : GatherDims.WF ⟨3, ![N, M, K]⟩ ⟨4, ![A, B, C, 3]⟩ ⟨3, ![A, B, C]⟩ [] [0, 1, 2] [] [0, 1, 2] [] 3 ![1, 1, 1])
    (idx : IVec ⟨4, ![A, B, C, 3]⟩ w) (a : Fin A) (b : Fin B) (c : Fin C) :
    (pointDims N M K A B C wf).start (ix3 a b c) idx (0 : Fin 3)
      = min (idx (ix4 a b c (0 : Fin 3))).toInt.toNat (N - 1) := by
  have hmem : (0 : Fin 3) ∈ (pointDims N M K A B C wf).startIndexMap := List.mem_cons_self
  unfold GatherDims.start
  rw [dif_pos hmem]
  have hsi : (pointDims N M K A B C wf).siIdx (ix3 a b c) ⟨List.idxOf (0 : Fin 3) (pointDims N M K A B C wf).startIndexMap,
      List.idxOf_lt_length_iff.2 hmem⟩ = ix4 a b c (0 : Fin 3) := by
    funext e; refine Fin.ext ?_
    match e with
    | ⟨0, _⟩ => rfl
    | ⟨1, _⟩ => rfl
    | ⟨2, _⟩ => rfl
    | ⟨3, _⟩ => rfl
  rw [hsi]
  rfl

/-- The clamped start on operand axis 1: component 1 of the start index stored at `(a, b, c, ·)`. -/
theorem start_one {N M K A B C w : Nat}
    (wf : GatherDims.WF ⟨3, ![N, M, K]⟩ ⟨4, ![A, B, C, 3]⟩ ⟨3, ![A, B, C]⟩ [] [0, 1, 2] [] [0, 1, 2] [] 3 ![1, 1, 1])
    (idx : IVec ⟨4, ![A, B, C, 3]⟩ w) (a : Fin A) (b : Fin B) (c : Fin C) :
    (pointDims N M K A B C wf).start (ix3 a b c) idx (1 : Fin 3)
      = min (idx (ix4 a b c (1 : Fin 3))).toInt.toNat (M - 1) := by
  have hmem : (1 : Fin 3) ∈ (pointDims N M K A B C wf).startIndexMap := List.mem_cons_of_mem _ List.mem_cons_self
  unfold GatherDims.start
  rw [dif_pos hmem]
  have hsi : (pointDims N M K A B C wf).siIdx (ix3 a b c) ⟨List.idxOf (1 : Fin 3) (pointDims N M K A B C wf).startIndexMap,
      List.idxOf_lt_length_iff.2 hmem⟩ = ix4 a b c (1 : Fin 3) := by
    funext e; refine Fin.ext ?_
    match e with
    | ⟨0, _⟩ => rfl
    | ⟨1, _⟩ => rfl
    | ⟨2, _⟩ => rfl
    | ⟨3, _⟩ => rfl
  rw [hsi]
  rfl

/-- The clamped start on operand axis 2: component 2 of the start index stored at `(a, b, c, ·)`. -/
theorem start_two {N M K A B C w : Nat}
    (wf : GatherDims.WF ⟨3, ![N, M, K]⟩ ⟨4, ![A, B, C, 3]⟩ ⟨3, ![A, B, C]⟩ [] [0, 1, 2] [] [0, 1, 2] [] 3 ![1, 1, 1])
    (idx : IVec ⟨4, ![A, B, C, 3]⟩ w) (a : Fin A) (b : Fin B) (c : Fin C) :
    (pointDims N M K A B C wf).start (ix3 a b c) idx (2 : Fin 3)
      = min (idx (ix4 a b c (2 : Fin 3))).toInt.toNat (K - 1) := by
  have hmem : (2 : Fin 3) ∈ (pointDims N M K A B C wf).startIndexMap := List.mem_cons_of_mem _ (List.mem_cons_of_mem _ List.mem_cons_self)
  unfold GatherDims.start
  rw [dif_pos hmem]
  have hsi : (pointDims N M K A B C wf).siIdx (ix3 a b c) ⟨List.idxOf (2 : Fin 3) (pointDims N M K A B C wf).startIndexMap,
      List.idxOf_lt_length_iff.2 hmem⟩ = ix4 a b c (2 : Fin 3) := by
    funext e; refine Fin.ext ?_
    match e with
    | ⟨0, _⟩ => rfl
    | ⟨1, _⟩ => rfl
    | ⟨2, _⟩ => rfl
    | ⟨3, _⟩ => rfl
  rw [hsi]
  rfl

/-- THE POINT GATHER READ AT `(a, b, c)`: the operand at the three components of the start index stored at
    `(a, b, c, ·)`, each read signed and clamped into its axis. -/
theorem gather_points_apply {N M K A B C w : Nat} (hN : 0 < N) (hM : 0 < M) (hK : 0 < K)
    (wf : GatherDims.WF ⟨3, ![N, M, K]⟩ ⟨4, ![A, B, C, 3]⟩ ⟨3, ![A, B, C]⟩ [] [0, 1, 2] [] [0, 1, 2] [] 3 ![1, 1, 1])
    (x : (⟨3, ![N, M, K]⟩ : Shape).Idx → α) (idx : IVec ⟨4, ![A, B, C, 3]⟩ w) (a : Fin A) (b : Fin B) (c : Fin C) :
    Host.gather (pointDims N M K A B C wf) x idx (ix3 a b c)
      = x (ix3 (⟨min (idx (ix4 a b c (0 : Fin 3))).toInt.toNat (N - 1), by omega⟩ : Fin N)
            (⟨min (idx (ix4 a b c (1 : Fin 3))).toInt.toNat (M - 1), by omega⟩ : Fin M)
            (⟨min (idx (ix4 a b c (2 : Fin 3))).toInt.toNat (K - 1), by omega⟩ : Fin K)) := by
  unfold Host.gather
  congr 1
  funext q
  refine Fin.ext ?_
  show (pointDims N M K A B C wf).start (ix3 a b c) idx q + (pointDims N M K A B C wf).batchCoord (ix3 a b c) q
      + (pointDims N M K A B C wf).offCoord (ix3 a b c) q = _
  have hcol : q ∈ (pointDims N M K A B C wf).collapsedSliceDims := by
    match q with
    | ⟨0, _⟩ => exact List.mem_cons_self
    | ⟨1, _⟩ => exact List.mem_cons_of_mem _ List.mem_cons_self
    | ⟨2, _⟩ => exact List.mem_cons_of_mem _ (List.mem_cons_of_mem _ List.mem_cons_self)
  rw [GatherDims.batchCoord_eq_zero _ _ _ List.not_mem_nil,
    GatherDims.offCoord_eq_zero _ _ _ (fun h => ((GatherDims.mem_sKept _ _).mp h).1 hcol)]
  simp only [Nat.add_zero]
  match q with
  | ⟨0, _⟩ => exact start_zero wf idx a b c
  | ⟨1, _⟩ => exact start_one wf idx a b c
  | ⟨2, _⟩ => exact start_two wf idx a b c

end Idealize.ShloMosaic.GatherPoints3
-- ==== Proof.RefValue.lean ====
/-
  THE REFERENCE'S LAST STAGE IS THE SPECIFICATION FUNCTION, index by index, over the extended reals.

  The reference computes, for every atom `(b, n)` and every bond type `t`, the projection of the atom's source embedding on
  the source half of weight row `t` (a contraction over the 128 embedding coordinates with the first 128 entries of row `t`
  of the weights read as eight rows of 256) and likewise the destination projection with the last 128 entries. It then reads
  both tables at the bond type of each pair by a point gather: the start index of pair `(b, i, j)` is the triple
  `(b, i, k)` for the source table and `(b, j, k)` for the destination table, `k` the edge word clipped into `[0, 7]`. Each
  component is first "normalised" (a negative word has the axis extent added) and then, by the gather, read signed and
  clamped into its axis. The batch and atom components are counters below 64 and 512: not negative, already in range. The
  third is one of `0, …, 7`: not negative, already in range. So the gather reads the source table at `(b, i, bond e)` and
  the destination table at `(b, j, bond e)`; their sum, kept where the edge word is not negative and passed through the leaky
  rectifier, is the specification's entry.
-/
import proofs.«407953_j369367188027_3_alg».proof.Proof.Spec
import proofs.«407953_j369367188027_3_alg».proof.Proof.LibGatherPoints3
import proofs.«407953_j369367188027_3_alg».proof.Proof.RefRead

noncomputable section

open scoped BigOperators

namespace Cert.ReferenceIdeal.RefValue

open Cert.ReferenceIdeal Cert.ReferenceIdeal.Gen Cert.ReferenceIdeal.Read Cert.EdgeScore
open Idealize.ShloMosaic Idealize.ShloMosaic.ValueIdx Idealize.ShloMosaic.GatherPoints3

/-! ## The index words -/

/-- A counter below 512, as a 32-bit word, is that number read signed. -/
theorem small_toInt (n : Nat) (hn : n < 512) : (BitVec.ofNat 32 n).toInt = (n : Int) := by
  have hnat : (BitVec.ofNat 32 n).toNat = n := by rw [BitVec.toNat_ofNat]; omega
  have h := BitVec.toInt_eq_toNat_cond (BitVec.ofNat 32 n)
  rw [hnat, if_pos (by omega)] at h
  exact h

/-- A counter below 512 is not negative, so normalising it (adding the axis extent `E` to a negative word) leaves it. -/
theorem norm_small (n : Nat) (hn : n < 512) (E : BitVec 32) :
    Scalar.select (IntOp.cmpi .slt (BitVec.ofNat 32 n) 0#32) (IntOp.addi (BitVec.ofNat 32 n) E) (BitVec.ofNat 32 n)
      = BitVec.ofNat 32 n := by
  have hs : (BitVec.ofNat 32 n).slt 0#32 = false := by
    simp only [BitVec.slt, small_toInt n hn]
    simp
  unfold IntOp.cmpi Scalar.select
  simp only [hs]
  rfl

/-- A counter `n` below 512, read signed and clamped into `[0, M]` with `n ≤ M`, is `n`. -/
theorem clamp_small (n M : Nat) (hn : n < 512) (hM : n ≤ M) : min (BitVec.ofNat 32 n).toInt.toNat M = n := by
  have h : (BitVec.ofNat 32 n).toInt.toNat = n := by rw [small_toInt n hn]; rfl
  rw [h]
  exact Nat.min_eq_left hM

/-- A clipped edge word is one of `0, …, 7`: normalised against the extent 8, read signed and clamped into `[0, 7]`, it
    is its own row number. -/
theorem bond_clamp (e : BitVec 32) :
    min (Scalar.select (IntOp.cmpi .slt (bond e) 0#32) (IntOp.addi (bond e) 8#32) (bond e)).toInt.toNat 7
      = (bondIx e).val := by
  show _ = (bond e).toNat % 8
  rcases bond_cases e with h | h | h | h | h | h | h | h <;> rw [h] <;> decide

/-! ## The clipped edge word and the three components of a start index, at a pair -/

/-- The clip stage at an index is the specification's bond word. -/
theorem v5_at (x2 : (⟨S64x512x512, .i32⟩ : BufTy).Contents (Elt Ideal)) (k : S64x512x512.Idx) : val_main_v5 (F := Ideal) x2 k = bond (x2 k) := by
  rw [val_main_v5_apply, val_main_call0_v4_apply, val_main_call0_v3_apply, val_main_c_0_apply, val_main_call0_v2_apply,
    val_main_call0_v1_apply, val_main_call0_v0_apply, val_main_c_apply]
  rfl

/-- Source gather, batch component: the counter `b`. -/
theorem v29_at (b : Fin 64) (i j : Fin 512) : val_main_v29 (F := Ideal) (ix4 b i j (0 : Fin 1)) = BitVec.ofNat 32 b.val := by
  rw [val_main_v29_apply, val_main_v27_apply, val_main_v16_apply, val_main_v13_apply, val_main_v15_apply,
    val_main_v7_apply, val_main_v6_apply, val_main_v12_apply, val_main_c_1_apply, val_main_v14_apply, val_main_c_2_apply]
  exact norm_small b.val (by omega) 64#32

/-- Source gather, atom component: the counter `i`. -/
theorem v30_at (b : Fin 64) (i j : Fin 512) : val_main_v30 (F := Ideal) (ix4 b i j (0 : Fin 1)) = BitVec.ofNat 32 i.val := by
  rw [val_main_v30_apply, val_main_v28_apply, val_main_v21_apply, val_main_v18_apply, val_main_v20_apply,
    val_main_v9_apply, val_main_v8_apply, val_main_v17_apply, val_main_c_3_apply, val_main_v19_apply, val_main_c_4_apply]
  exact norm_small i.val (by omega) 512#32

/-- Source gather, bond component: the clipped edge word, normalised against the extent 8. -/
theorem v31_at (x2 : (⟨S64x512x512, .i32⟩ : BufTy).Contents (Elt Ideal)) (b : Fin 64) (i j : Fin 512) :
    val_main_v31 (F := Ideal) x2 (ix4 b i j (0 : Fin 1))
      = Scalar.select (IntOp.cmpi .slt (bond (x2 (ix3 b i j))) 0#32) (IntOp.addi (bond (x2 (ix3 b i j))) 8#32)
          (bond (x2 (ix3 b i j))) := by
  have hk : idx_main_v31 (ix4 b i j (0 : Fin 1)) = ix3 b i j := by funext a; match a with | ⟨0, _⟩ => rfl | ⟨1, _⟩ => rfl | ⟨2, _⟩ => rfl
  rw [val_main_v31_apply, hk, val_main_v26_apply, val_main_v23_apply, val_main_v25_apply, v5_at, val_main_v22_apply,
    val_main_c_5_apply, val_main_v24_apply, val_main_c_6_apply]

/-- Destination gather, batch component: the counter `b`. -/
theorem v51_at (b : Fin 64) (i j : Fin 512) : val_main_v51 (F := Ideal) (ix4 b i j (0 : Fin 1)) = BitVec.ofNat 32 b.val := by
  rw [val_main_v51_apply, val_main_v49_apply, val_main_v38_apply, val_main_v35_apply, val_main_v37_apply,
    val_main_v7_apply, val_main_v6_apply, val_main_v34_apply, val_main_c_7_apply, val_main_v36_apply, val_main_c_8_apply]
  exact norm_small b.val (by omega) 64#32

/-- Destination gather, atom component: the counter `j`. -/
theorem v52_at (b : Fin 64) (i j : Fin 512) : val_main_v52 (F := Ideal) (ix4 b i j (0 : Fin 1)) = BitVec.ofNat 32 j.val := by
  rw [val_main_v52_apply, val_main_v50_apply, val_main_v43_apply, val_main_v40_apply, val_main_v42_apply,
    val_main_v11_apply, val_main_v10_apply, val_main_v39_apply, val_main_c_9_apply, val_main_v41_apply, val_main_c_10_apply]
  exact norm_small j.val (by omega) 512#32

/-- Destination gather, bond component: the clipped edge word, normalised against the extent 8. -/
theorem v53_at (x2 : (⟨S64x512x512, .i32⟩ : BufTy).Contents (Elt Ideal)) (b : Fin 64) (i j : Fin 512) :
    val_main_v53 (F := Ideal) x2 (ix4 b i j (0 : Fin 1))
      = Scalar.select (IntOp.cmpi .slt (bond (x2 (ix3 b i j))) 0#32) (IntOp.addi (bond (x2 (ix3 b i j))) 8#32)
          (bond (x2 (ix3 b i j))) := by
  have hk : idx_main_v53 (ix4 b i j (0 : Fin 1)) = ix3 b i j := by funext a; match a with | ⟨0, _⟩ => rfl | ⟨1, _⟩ => rfl | ⟨2, _⟩ => rfl
  rw [val_main_v53_apply, hk, val_main_v48_apply, val_main_v45_apply, val_main_v47_apply, v5_at, val_main_v44_apply,
    val_main_c_11_apply, val_main_v46_apply, val_main_c_12_apply]

/-! ## Three arrays stacked on a trailing axis of size 3 -/

/-- Three arrays `[64, 512, 512, 1]` joined along the last axis: entry `(b, i, j, c)` of the result is entry
    `(b, i, j, 0)` of piece `c`. -/
theorem stack3_apply {α : Type} (f0 f1 f2 : S64x512x512x1.Idx → α)
    (h : Shape.Concatenates [S64x512x512x1, S64x512x512x1, S64x512x512x1] S64x512x512x3 3) (b : Fin 64) (i j : Fin 512) :
    concatenate S64x512x512x3 3 [⟨S64x512x512x1, f0⟩, ⟨S64x512x512x1, f1⟩, ⟨S64x512x512x1, f2⟩] h (ix4 b i j (0 : Fin 3))
        = f0 (ix4 b i j (0 : Fin 1))
      ∧ concatenate S64x512x512x3 3 [⟨S64x512x512x1, f0⟩, ⟨S64x512x512x1, f1⟩, ⟨S64x512x512x1, f2⟩] h (ix4 b i j (1 : Fin 3))
        = f1 (ix4 b i j (0 : Fin 1))
      ∧ concatenate S64x512x512x3 3 [⟨S64x512x512x1, f0⟩, ⟨S64x512x512x1, f1⟩, ⟨S64x512x512x1, f2⟩] h (ix4 b i j (2 : Fin 3))
        = f2 (ix4 b i j (0 : Fin 1)) := by
  have hi : ∀ c : Fin 3, ∀ q : Fin S64x512x512x1.rank, q.cast (rfl : S64x512x512x1.rank = S64x512x512x3.rank) ≠ (3 : Fin 4) →
      ((ix4 b i j (0 : Fin 1) : S64x512x512x1.Idx) q).val
        = ((ix4 b i j c : S64x512x512x3.Idx) (q.cast (rfl : S64x512x512x1.rank = S64x512x512x3.rank))).val := by
    intro c q hq
    match q with
    | ⟨0, _⟩ => rfl
    | ⟨1, _⟩ => rfl
    | ⟨2, _⟩ => rfl
    | ⟨3, _⟩ => exact absurd (Fin.ext rfl) hq
  refine ⟨?_, ?_, ?_⟩
  · exact concatenate_apply_piece (t := S64x512x512x3) (3 : Fin 4)
      ([⟨S64x512x512x1, f0⟩, ⟨S64x512x512x1, f1⟩, ⟨S64x512x512x1, f2⟩] : List ((s : Shape) × (s.Idx → α))) h (ix4 b i j (0 : Fin 3)) 0 (by show (0 : Nat) < 3; decide) S64x512x512x1 f0 rfl rfl 0 rfl
      (ix4 b i j (0 : Fin 1)) (hi 0) rfl
  · exact concatenate_apply_piece (t := S64x512x512x3) (3 : Fin 4)
      ([⟨S64x512x512x1, f0⟩, ⟨S64x512x512x1, f1⟩, ⟨S64x512x512x1, f2⟩] : List ((s : Shape) × (s.Idx → α))) h (ix4 b i j (1 : Fin 3)) 1 (by show (1 : Nat) < 3; decide) S64x512x512x1 f1 rfl rfl 1 rfl
      (ix4 b i j (0 : Fin 1)) (hi 1) rfl
  · exact concatenate_apply_piece (t := S64x512x512x3) (3 : Fin 4)
      ([⟨S64x512x512x1, f0⟩, ⟨S64x512x512x1, f1⟩, ⟨S64x512x512x1, f2⟩] : List ((s : Shape) × (s.Idx → α))) h (ix4 b i j (2 : Fin 3)) 2 (by show (2 : Nat) < 3; decide) S64x512x512x1 f2 rfl rfl 2 rfl
      (ix4 b i j (0 : Fin 1)) (hi 2) rfl

/-! ## The point gather of a projection table -/

/-- The reference's gather of a table `[64, 512, 8]` at a pair `(b, i, j)`: the table at `(p, q, r)` once the three
    components of the pair's start index, read signed and clamped into their axes, are `p`, `q`, `r`. -/
theorem gather_read {α : Type} (x : S64x512x8.Idx → α) (idx : IVec S64x512x512x3 32) (b : Fin 64) (i j : Fin 512)
    (p : Fin 64) (q : Fin 512) (r : Fin 8)
    (h0 : min (idx (ix4 b i j (0 : Fin 3))).toInt.toNat 63 = p.val)
    (h1 : min (idx (ix4 b i j (1 : Fin 3))).toInt.toNat 511 = q.val)
    (h2 : min (idx (ix4 b i j (2 : Fin 3))).toInt.toNat 7 = r.val) :
    Host.gather gather_S64x512x8_S64x512x512x3_S64x512x512_n_012_n_n_012_3_111 x idx (ix3 b i j) = x (ix3 p q r) := by
  refine (gather_points_apply (N := 64) (M := 512) (K := 8) (by decide) (by decide) (by decide)
    gather_S64x512x8_S64x512x512x3_S64x512x512_n_012_n_n_012_3_111_wf x idx b i j).trans ?_
  congr 1
  funext a
  match a with
  | ⟨0, _⟩ => exact Fin.ext h0
  | ⟨1, _⟩ => exact Fin.ext h1
  | ⟨2, _⟩ => exact Fin.ext h2

/-- The source gather at a pair reads the source table at `(b, i, bond e)`. -/
theorem v33_at (x0 : (⟨S64x512x128, .f32⟩ : BufTy).Contents (Elt Ideal)) (x2 : (⟨S64x512x512, .i32⟩ : BufTy).Contents (Elt Ideal)) (x3 : (⟨S2048x1, .f32⟩ : BufTy).Contents (Elt Ideal)) (b : Fin 64) (i j : Fin 512) :
    val_main_v33 (F := Ideal) x0 x2 x3 (ix3 b i j)
      = val_main_v3 (F := Ideal) x0 x3 (ix3 b i (bondIx (x2 (ix3 b i j)))) := by
  have hs := stack3_apply (val_main_v29 (F := Ideal)) (val_main_v30 (F := Ideal)) (val_main_v31 (F := Ideal) x2)
    concatenates_S64x512x512x1_S64x512x512x1_S64x512x512x1_S64x512x512x3_d3 b i j
  unfold val_main_v33
  refine gather_read _ _ b i j b i (bondIx (x2 (ix3 b i j))) ?_ ?_ ?_
  · unfold val_main_v32
    rw [hs.1, v29_at]
    exact clamp_small b.val 63 (by omega) (by omega)
  · unfold val_main_v32
    rw [hs.2.1, v30_at]
    exact clamp_small i.val 511 (by omega) (by omega)
  · unfold val_main_v32
    rw [hs.2.2, v31_at]
    exact bond_clamp _

/-- The destination gather at a pair reads the destination table at `(b, j, bond e)`. -/
theorem v55_at (x1 : (⟨S64x512x128, .f32⟩ : BufTy).Contents (Elt Ideal)) (x2 : (⟨S64x512x512, .i32⟩ : BufTy).Contents (Elt Ideal)) (x3 : (⟨S2048x1, .f32⟩ : BufTy).Contents (Elt Ideal)) (b : Fin 64) (i j : Fin 512) :
    val_main_v55 (F := Ideal) x1 x2 x3 (ix3 b i j)
      = val_main_v4 (F := Ideal) x1 x3 (ix3 b j (bondIx (x2 (ix3 b i j)))) := by
  have hs := stack3_apply (val_main_v51 (F := Ideal)) (val_main_v52 (F := Ideal)) (val_main_v53 (F := Ideal) x2)
    concatenates_S64x512x512x1_S64x512x512x1_S64x512x512x1_S64x512x512x3_d3 b i j
  unfold val_main_v55
  refine gather_read _ _ b i j b j (bondIx (x2 (ix3 b i j))) ?_ ?_ ?_
  · unfold val_main_v54
    rw [hs.1, v51_at]
    exact clamp_small b.val 63 (by omega) (by omega)
  · unfold val_main_v54
    rw [hs.2.1, v52_at]
    exact clamp_small j.val 511 (by omega) (by omega)
  · unfold val_main_v54
    rw [hs.2.2, v53_at]
    exact bond_clamp _

/-! ## The two projection tables -/

/-- The source table at `(b, n, t)` is the specification's source projection: entry `(t, d)` of the source half of the
    weights is entry `256 t + d` of the weight vector. -/
theorem v3_at (x0 : (⟨S64x512x128, .f32⟩ : BufTy).Contents (Elt Ideal)) (x3 : (⟨S2048x1, .f32⟩ : BufTy).Contents (Elt Ideal)) (b : Fin 64) (n : Fin 512) (t : Fin 8) :
    val_main_v3 (F := Ideal) x0 x3 (ix3 b n t) = projSrc x0 x3 b n t := by
  rw [val_main_v3_apply]
  unfold projSrc
  refine Finset.sum_congr rfl fun k _ => ?_
  rw [val_main_v1_apply, val_main_v0_apply]
  have e1 : lidx_main_v3 (ix3 b n t) k = ix3 b n k := by funext a; match a with | ⟨0, _⟩ => rfl | ⟨1, _⟩ => rfl | ⟨2, _⟩ => rfl
  have e2 : idx_main_v0 (idx_main_v1 (ridx_main_v3 (ix3 b n t) k))
      = ix2 (⟨256 * t.val + k.val, by omega⟩ : Fin 2048) (0 : Fin 1) := by
    funext a
    match a with
    | ⟨0, _⟩ => exact Fin.ext (by show (t.val * 256 + k.val) / 1 = 256 * t.val + k.val; omega)
    | ⟨1, _⟩ => rfl
  rw [e1, e2]

/-- The destination table at `(b, n, t)` is the specification's destination projection: entry `(t, d)` of the destination
    half of the weights is entry `256 t + 128 + d` of the weight vector. -/
theorem v4_at (x1 : (⟨S64x512x128, .f32⟩ : BufTy).Contents (Elt Ideal)) (x3 : (⟨S2048x1, .f32⟩ : BufTy).Contents (Elt Ideal)) (b : Fin 64) (n : Fin 512) (t : Fin 8) :
    val_main_v4 (F := Ideal) x1 x3 (ix3 b n t) = projDst x1 x3 b n t := by
  rw [val_main_v4_apply]
  unfold projDst
  refine Finset.sum_congr rfl fun k _ => ?_
  rw [val_main_v2_apply, val_main_v0_apply]
  have e1 : lidx_main_v4 (ix3 b n t) k = ix3 b n k := by funext a; match a with | ⟨0, _⟩ => rfl | ⟨1, _⟩ => rfl | ⟨2, _⟩ => rfl
  have e2 : idx_main_v0 (idx_main_v2 (ridx_main_v4 (ix3 b n t) k))
      = ix2 (⟨256 * t.val + 128 + k.val, by omega⟩ : Fin 2048) (0 : Fin 1) := by
    funext a
    match a with
    | ⟨0, _⟩ => exact Fin.ext (by show (t.val * 256 + (128 + k.val)) / 1 = 256 * t.val + 128 + k.val; omega)
    | ⟨1, _⟩ => rfl
  rw [e1, e2]

/-! ## The last stage -/

/-- THE REFERENCE'S RESULT IS THE SPECIFICATION FUNCTION of the four argument arrays. -/
theorem val_main_v64_eq_G (x0 x1 : (⟨Cert.ReferenceIdeal.S64x512x128, .f32⟩ : BufTy).Contents (Elt Ideal)) (x2 : (⟨Cert.ReferenceIdeal.S64x512x512, .i32⟩ : BufTy).Contents (Elt Ideal)) (x3 : (⟨Cert.ReferenceIdeal.S2048x1, .f32⟩ : BufTy).Contents (Elt Ideal)) :
    Cert.ReferenceIdeal.Read.val_main_v64 (F := Ideal) x0 x1 x2 x3 = Cert.EdgeScore.G x0 x1 x2 x3 := by
  funext y
  obtain ⟨b, i, j, rfl⟩ : ∃ b i j, y = ix3 b i j := ⟨y 0, y 1, y 2, eq_ix3 y⟩
  rw [val_main_v64_apply, val_main_v61_apply, val_main_v63_apply, val_main_v59_apply, val_main_v58_apply,
    val_main_v57_apply, val_main_c_13_apply, val_main_call1_v0_apply, val_main_cst_apply, val_main_v60_apply,
    val_main_cst_14_apply, val_main_v62_apply, val_main_cst_15_apply, val_main_v56_apply, v33_at, v55_at, v3_at, v4_at]
  rfl

end Cert.ReferenceIdeal.RefValue

end
-- ==== Proof.lean ====
/-
  The certificate of an edge-attention kernel against its jnp reference, over the extended reals.

  For a batch `b` and a pair of atoms `(i, j)` both programs read the edge word `e = edges[b, i, j]`, clip it into `[0, 7]` to a
  bond type `t`, add the projection of atom `i`'s source embedding on the source half of weight row `t` to the projection of
  atom `j`'s destination embedding on the destination half of the same row, keep that score where `e ≥ 0` (zero elsewhere) and
  apply the leaky rectifier of slope 0.2 (`Cert.EdgeScore.G`, Proof/Spec.lean).
  The kernel computes all eight candidate scores of a pair by two matrix products per batch member and picks one by a chain of
  eight selects on the clipped word; the reference gathers the two projections at the clipped word. Exactly one step of the
  chain fires, so the two agree with no law of arithmetic beyond the commutativity of a product: finiteness of the inputs is
  never used.

  The kernel side: one loop trip stores the slab of one batch member (Proof/LoopPieces*.lean), whose entries are read in
  Proof/SlabValue.lean; the four slabs of a grid point tile its output block (Proof/BlockValue.lean), and the sixteen blocks
  tile the result (Proof/ArrayValue.lean). The reference side: its last stage read index by index through the two gathers
  (Proof/RefValue.lean over Proof/LibGatherPoints3.lean), after the reference's run read stretch by stretch (Proof/RefRun.lean
  over Proof/LibNary3.lean). The frames of the two kernel programs stand over a run whose piece
  list is stated (Proof/RunA*.lean, Proof/Frame*.lean); the reference's frame is its run with the result dropped; the
  idealization rewrote nothing, so `preserves` is `True`.
-/
import proofs.«407953_j369367188027_3_alg».proof.Defs
import proofs.«407953_j369367188027_3_alg».proof.Proof.Gen.Kernel
import proofs.«407953_j369367188027_3_alg».proof.Proof.Gen.KernelIdeal
import proofs.«407953_j369367188027_3_alg».proof.Proof.Gen.ReferenceIdeal
import proofs.«407953_j369367188027_3_alg».proof.Proof.RefRun
import proofs.«407953_j369367188027_3_alg».proof.Proof.Gen.Pre_finite_inputs
import proofs.«407953_j369367188027_3_alg».proof.Proof.FrameBits
import proofs.«407953_j369367188027_3_alg».proof.Proof.FrameIdeal
import proofs.«407953_j369367188027_3_alg».proof.Proof.ArrayValue
import proofs.«407953_j369367188027_3_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel (hKernel := Cert.Kernel.Gen.facts) (hPre_finite_inputs := Cert.Pre_finite_inputs.Gen.facts) :=
  fun m ρ _ => Cert.Kernel.GenP.frame m ρ

/-- So does the idealized kernel. -/
theorem frame_kernelIdeal : Cert.frame_KernelIdeal (hKernelIdeal := Cert.KernelIdeal.Gen.facts) (hPre_finite_inputs := Cert.Pre_finite_inputs.Gen.facts) :=
  fun m ρ _ => Cert.KernelIdeal.GenP.frame m ρ

/-- The reference's frame is its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.RefRun.run (F := Ideal) m ρ)

/-- From memories that agree on the four arguments, the kernel's result array and the reference's are both the
    specification's function of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.ArrayValue.spec m c, Cert.KernelIdeal.ArrayValue.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.val_main_v64_eq_G,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
